-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2097152x20 : Shape := ⟨2, ![2097152, 20]⟩
abbrev S1x80 : Shape := ⟨2, ![1, 80]⟩
abbrev S20x80 : Shape := ⟨2, ![20, 80]⟩
abbrev S80 : Shape := ⟨1, ![80]⟩
abbrev S20x1 : Shape := ⟨2, ![20, 1]⟩
abbrev S1 : Shape := ⟨1, ![1]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2097152x20 : S_.BroadcastsInDim S2097152x20 (![] : Fin 0 → Fin S2097152x20.rank)
  reducesTo_S2097152x20_S_d0_1 : S2097152x20.ReducesTo [0, 1] S_
  bcast_S_S1x80 : S_.BroadcastsInDim S1x80 (![] : Fin 0 → Fin S1x80.rank)
  reducesTo_S1x80_S_d0_1 : S1x80.ReducesTo [0, 1] S_
  bcast_S_S20x80 : S_.BroadcastsInDim S20x80 (![] : Fin 0 → Fin S20x80.rank)
  reducesTo_S20x80_S_d0_1 : S20x80.ReducesTo [0, 1] S_
  bcast_S_S80 : S_.BroadcastsInDim S80 (![] : Fin 0 → Fin S80.rank)
  reducesTo_S80_S_d0 : S80.ReducesTo [0] S_
  bcast_S_S20x1 : S_.BroadcastsInDim S20x1 (![] : Fin 0 → Fin S20x1.rank)
  reducesTo_S20x1_S_d0_1 : S20x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S20x1 .f32) (main_arg12 : FVec F S1 .f32) (main_v48 : IVec S_ 1) (main_v49 : FVec F S80 .f32) (main_v50 : FVec F S80 .f32) : IVec S_ 1 :=
  let main_v51 : IVec S80 1 := cmpf .olt main_v49 main_v50
  let main_c_19 : IVec S_ 1 := constantI S_ 1 1#1
  let main_v52 : IVec S_ 1 := (fun x v => Host.reduce IntOp.andi x v reducesTo_S80_S_d0 h_S_) main_v51 main_c_19
  let main_v53 : IVec S_ 1 := andi main_v48 main_v52
  let main_v54 : FVec F S20x1 .f32 := Host.absf main_arg11
  let main_cst_20 : FVec F S_ .f32 := constant S_ .f32 0x7F800000#32
  let main_v55 : FVec F S20x1 .f32 := broadcastInDim S20x1 ![] bcast_S_S20x1 main_cst_20
  let main_v56 : IVec S20x1 1 := cmpf .olt main_v54 main_v55
  let main_c_21 : IVec S_ 1 := constantI S_ 1 1#1
  let main_v57 : IVec S_ 1 := (fun x v => Host.reduce IntOp.andi x v reducesTo_S20x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S80 .f32) (main_arg8 : FVec F S20x80 .f32) (main_arg9 : FVec F S20x80 .f32) (main_arg10 : FVec F S80 .f32) (main_arg11 : FVec F S20x1 .f32) (main_arg12 : FVec F S1 .f32) (main_v33 : IVec S_ 1) : IVec S_ 1 :=
  let main_v34 : FVec F S80 .f32 := Host.absf main_arg7
  let main_cst_12 : FVec F S_ .f32 := constant S_ .f32 0x7F800000#32
  let main_v35 : FVec F S80 .f32 := broadcastInDim S80 ![] bcast_S_S80 main_cst_12
  let main_v36 : IVec S80 1 := cmpf .olt main_v34 main_v35
  let main_c_13 : IVec S_ 1 := constantI S_ 1 1#1
  let main_v37 : IVec S_ 1 := (fun x v => Host.reduce IntOp.andi x v reducesTo_S80_S_d0 h_S_) main_v36 main_c_13
  let main_v38 : IVec S_ 1 := andi main_v33 main_v37
  let main_v39 : FVec F S20x80 .f32 := Host.absf main_arg8
  let main_cst_14 : FVec F S_ .f32 := constant S_ .f32 0x7F800000#32
  let main_v40 : FVec F S20x80 .f32 := broadcastInDim S20x80 ![] bcast_S_S20x80 main_cst_14
  let main_v41 : IVec S20x80 1 := cmpf .olt main_v39 main_v40
  let main_c_15 : IVec S_ 1 := constantI S_ 1 1#1
  let main_v42 : IVec S_ 1 := (fun x v => Host.reduce IntOp.andi x v reducesTo_S20x80_S_d0_1 h_S_) main_v41 main_c_15
  let main_v43 : IVec S_ 1 := andi main_v38 main_v42
  let main_v44 : FVec F S20x80 .f32 := Host.absf main_arg9
  let main_cst_16 : FVec F S_ .f32 := constant S_ .f32 0x7F800000#32
  let main_v45 : FVec F S20x80 .f32 := broadcastInDim S20x80 ![] bcast_S_S20x80 main_cst_16
  let main_v46 : IVec S20x80 1 := cmpf .olt main_v44 main_v45
  let main_c_17 : IVec S_ 1 := constantI S_ 1 1#1
  let main_v47 : IVec S_ 1 := (fun x v => Host.reduce IntOp.andi x v reducesTo_S20x80_S_d0_1 h_S_) main_v46 main_c_17
  let main_v48 : IVec S_ 1 := andi main_v43 main_v47
  let main_v49 : FVec F S80 .f32 := Host.absf main_arg10
  let main_cst_18 : FVec F S_ .f32 := constant S_ .f32 0x7F800000#32
  let main_v50 : FVec F S80 .f32 := broadcastInDim S80 ![] bcast_S_S80 main_cst_18
  fn_part3 (F := F) main_arg11 main_arg12 main_v48 main_v49 main_v50

def fn_part1 {F : FTy → Type} [FloatOps F] (main_arg4 : FVec F S2097152x20 .f32) (main_arg5 : FVec F S1x80 .f32) (main_arg6 : FVec F S20x80 .f32) (main_arg7 : FVec F S80 .f32) (main_arg8 : FVec F S20x80 .f32) (main_arg9 : FVec F S20x80 .f32) (main_arg10 : FVec F S80 .f32) (main_arg11 : FVec F S20x1 .f32) (main_arg12 : FVec F S1 .f32) (main_v13 : IVec S_ 1) (main_v16 : IVec S2097152x20 1) : IVec S_ 1 :=
  let main_c_5 : IVec S_ 1 := constantI S_ 1 1#1
  let main_v17 : IVec S_ 1 := (fun x v => Host.reduce IntOp.andi x v reducesTo_S2097152x20_S_d0_1 h_S_) main_v16 main_c_5
  let main_v18 : IVec S_ 1 := andi main_v13 main_v17
  let main_v19 : FVec F S2097152x20 .f32 := Host.absf main_arg4
  let main_cst_6 : FVec F S_ .f32 := constant S_ .f32 0x7F800000#32
  let main_v20 : FVec F S2097152x20 .f32 := broadcastInDim S2097152x20 ![] bcast_S_S2097152x20 main_cst_6
  let main_v21 : IVec S2097152x20 1 := cmpf .olt main_v19 main_v20
  let main_c_7 : IVec S_ 1 := constantI S_ 1 1#1
  let main_v22 : IVec S_ 1 := (fun x v => Host.reduce IntOp.andi x v reducesTo_S2097152x20_S_d0_1 h_S_) main_v21 main_c_7
  let main_v23 : IVec S_ 1 := andi main_v18 main_v22
  let main_v24 : FVec F S1x80 .f32 := Host.absf main_arg5
  let main_cst_8 : FVec F S_ .f32 := constant S_ .f32 0x7F800000#32
  let main_v25 : FVec F S1x80 .f32 := broadcastInDim S1x80 ![] bcast_S_S1x80 main_cst_8
  let main_v26 : IVec S1x80 1 := cmpf .olt main_v24 main_v25
  let main_c_9 : IVec S_ 1 := constantI S_ 1 1#1
  let main_v27 : IVec S_ 1 := (fun x v => Host.reduce IntOp.andi x v reducesTo_S1x80_S_d0_1 h_S_) main_v26 main_c_9
  let main_v28 : IVec S_ 1 := andi main_v23 main_v27
  let main_v29 : FVec F S20x80 .f32 := Host.absf main_arg6
  let main_cst_10 : FVec F S_ .f32 := constant S_ .f32 0x7F800000#32
  let main_v30 : FVec F S20x80 .f32 := broadcastInDim S20x80 ![] bcast_S_S20x80 main_cst_10
  let main_v31 : IVec S20x80 1 := cmpf .olt main_v29 main_v30
  let main_c_11 : IVec S_ 1 := constantI S_ 1 1#1
  let main_v32 : IVec S_ 1 := (fun x v => Host.reduce IntOp.andi x v reducesTo_S20x80_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x1024 .f32) (main_arg1 : FVec F S2097152x20 .f32) (main_arg2 : FVec F S2097152x20 .f32) (main_arg3 : FVec F S2097152x20 .f32) (main_arg4 : FVec F S2097152x20 .f32) (main_arg5 : FVec F S1x80 .f32) (main_arg6 : FVec F S20x80 .f32) (main_arg7 : FVec F S80 .f32) (main_arg8 : FVec F S20x80 .f32) (main_arg9 : FVec F S20x80 .f32) (main_arg10 : FVec F S80 .f32) (main_arg11 : FVec F S20x1 .f32) (main_arg12 : FVec F S1 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2097152x20 .f32 := Host.absf main_arg1
  let main_cst_0 : FVec F S_ .f32 := constant S_ .f32 0x7F800000#32
  let main_v5 : FVec F S2097152x20 .f32 := broadcastInDim S2097152x20 ![] bcast_S_S2097152x20 main_cst_0
  let main_v6 : IVec S2097152x20 1 := cmpf .olt main_v4 main_v5
  let main_c_1 : IVec S_ 1 := constantI S_ 1 1#1
  let main_v7 : IVec S_ 1 := (fun x v => Host.reduce IntOp.andi x v reducesTo_S2097152x20_S_d0_1 h_S_) main_v6 main_c_1
  let main_v8 : IVec S_ 1 := andi main_v3 main_v7
  let main_v9 : FVec F S2097152x20 .f32 := Host.absf main_arg2
  let main_cst_2 : FVec F S_ .f32 := constant S_ .f32 0x7F800000#32
  let main_v10 : FVec F S2097152x20 .f32 := broadcastInDim S2097152x20 ![] bcast_S_S2097152x20 main_cst_2
  let main_v11 : IVec S2097152x20 1 := cmpf .olt main_v9 main_v10
  let main_c_3 : IVec S_ 1 := constantI S_ 1 1#1
  let main_v12 : IVec S_ 1 := (fun x v => Host.reduce IntOp.andi x v reducesTo_S2097152x20_S_d0_1 h_S_) main_v11 main_c_3
  let main_v13 : IVec S_ 1 := andi main_v8 main_v12
  let main_v14 : FVec F S2097152x20 .f32 := Host.absf main_arg3
  let main_cst_4 : FVec F S_ .f32 := constant S_ .f32 0x7F800000#32
  let main_v15 : FVec F S2097152x20 .f32 := broadcastInDim S2097152x20 ![] bcast_S_S2097152x20 main_cst_4
  let main_v16 : IVec S2097152x20 1 := cmpf .olt main_v14 main_v15
  fn_part1 (F := F) main_arg4 main_arg5 main_arg6 main_arg7 main_arg8 main_arg9 main_arg10 main_arg11 main_arg12 main_v13 main_v16
-- ==== Kernel.lean ====
abbrev S2048x1024 : Shape := ⟨2, ![2048, 1024]⟩
abbrev S2097152x20 : Shape := ⟨2, ![2097152, 20]⟩
abbrev S1x80 : Shape := ⟨2, ![1, 80]⟩
abbrev S20x80 : Shape := ⟨2, ![20, 80]⟩
abbrev S80 : Shape := ⟨1, ![80]⟩
abbrev S20x1 : Shape := ⟨2, ![20, 1]⟩
abbrev S1 : Shape := ⟨1, ![1]⟩
abbrev S2097152x1 : Shape := ⟨2, ![2097152, 1]⟩
abbrev S1x1 : Shape := ⟨2, ![1, 1]⟩
abbrev S2048x1 : Shape := ⟨2, ![2048, 1]⟩
abbrev S2048x20 : Shape := ⟨2, ![2048, 20]⟩
abbrev S2048x80 : Shape := ⟨2, ![2048, 80]⟩

abbrev nBuf : Space → Nat
  | .hbm => 23
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2097152x20, .f32⟩
  | .hbm, ⟨2, _⟩ => ⟨S2097152x20, .f32⟩
  | .hbm, ⟨3, _⟩ => ⟨S2097152x20, .f32⟩
  | .hbm, ⟨4, _⟩ => ⟨S2097152x20, .f32⟩
  | .hbm, ⟨5, _⟩ => ⟨S1x80, .f32⟩
  | .hbm, ⟨6, _⟩ => ⟨S20x80, .f32⟩
  | .hbm, ⟨7, _⟩ => ⟨S80, .f32⟩
  | .hbm, ⟨8, _⟩ => ⟨S20x80, .f32⟩
  | .hbm, ⟨9, _⟩ => ⟨S20x80, .f32⟩
  | .hbm, ⟨10, _⟩ => ⟨S80, .f32⟩
  | .hbm, ⟨11, _⟩ => ⟨S20x1, .f32⟩
  | .hbm, ⟨12, _⟩ => ⟨S1, .f32⟩
  | .hbm, ⟨13, _⟩ => ⟨S2097152x1, .f32⟩
  | .hbm, ⟨14, _⟩ => ⟨S1x80, .f32⟩
  | .hbm, ⟨15, _⟩ => ⟨S1x80, .f32⟩
  | .hbm, ⟨16, _⟩ => ⟨S1x1, .f32⟩
  | .hbm, ⟨17, _⟩ => ⟨S2097152x1, .f32⟩
  | .hbm, ⟨18, _⟩ => ⟨S2097152x20, .f32⟩
  | .hbm, ⟨19, _⟩ => ⟨S2097152x20, .f32⟩
  | .hbm, ⟨20, _⟩ => ⟨S2097152x20, .f32⟩
  | .hbm, ⟨21, _⟩ => ⟨S2097152x20, .f32⟩
  | .hbm, ⟨22, _⟩ => ⟨S2048x1024, .f32⟩
  | .local _ .vmem, ⟨0, _⟩ => ⟨S2048x1, .f32⟩
  | .local _ .vmem, ⟨1, _⟩ => ⟨S2048x1, .f32⟩
  | .local _ .vmem, ⟨2, _⟩ => ⟨S2048x20, .f32⟩
  | .local _ .vmem, ⟨3, _⟩ => ⟨S2048x20, .f32⟩
  | .local _ .vmem, ⟨4, _⟩ => ⟨S2048x20, .f32⟩
  | .local _ .vmem, ⟨5, _⟩ => ⟨S2048x20, .f32⟩
  | .local _ .vmem, ⟨6, _⟩ => ⟨S2048x20, .f32⟩
  | .local _ .vmem, ⟨7, _⟩ => ⟨S2048x20, .f32⟩
  | .local _ .vmem, ⟨8, _⟩ => ⟨S2048x20, .f32⟩
  | .local _ .vmem, ⟨9, _⟩ => ⟨S2048x20, .f32⟩
  | .local _ .vmem, ⟨10, _⟩ => ⟨S1x80, .f32⟩
  | .local _ .vmem, ⟨11, _⟩ => ⟨S20x80, .f32⟩
  | .local _ .vmem, ⟨12, _⟩ => ⟨S1x80, .f32⟩
  | .local _ .vmem, ⟨13, _⟩ => ⟨S20x80, .f32⟩
  | .local _ .vmem, ⟨14, _⟩ => ⟨S20x80, .f32⟩
  | .local _ .vmem, ⟨15, _⟩ => ⟨S1x80, .f32⟩
  | .local _ .vmem, ⟨16, _⟩ => ⟨S20x1, .f32⟩
  | .local _ .vmem, ⟨17, _⟩ => ⟨S1x1, .f32⟩
  | .local _ .vmem, ⟨18, _⟩ => ⟨S2048x1, .f32⟩
  | .local _ .vmem, ⟨19, _⟩ => ⟨S2048x1, .f32⟩
  | .local _ .vmem, ⟨20, _⟩ => ⟨S2048x20, .f32⟩
  | .local _ .vmem, ⟨21, _⟩ => ⟨S2048x20, .f32⟩
  | .local _ .vmem, ⟨22, _⟩ => ⟨S2048x20, .f32⟩
  | .local _ .vmem, ⟨23, _⟩ => ⟨S2048x20, .f32⟩
  | .local _ .vmem, ⟨24, _⟩ => ⟨S2048x20, .f32⟩
  | .local _ .vmem, ⟨25, _⟩ => ⟨S2048x20, .f32⟩
  | .local _ .vmem, ⟨26, _⟩ => ⟨S2048x20, .f32⟩
  | .local _ .vmem, ⟨27, _⟩ => ⟨S2048x20, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S20x80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S20x80 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x80 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S20x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x20 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x20 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x20 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x20 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S2048x1024_S2097152x1 : S2048x1024.ShapeCasts S2097152x1
  shapeCasts_S80_S1x80 : S80.ShapeCasts S1x80
  shapeCasts_S1_S1x1 : S1.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x20_S2048x20_0_0 : ∀ a, (![0, 0] : Fin 2 → Nat) a + S2048x20.size a ≤ S2048x20.size a
  h_S2048x20 : 0 < S2048x20.numel
  inb_S1x80_S1x80_0_0 : ∀ a, (![0, 0] : Fin 2 → Nat) a + S1x80.size a ≤ S1x80.size a
  h_S1x80 : 0 < S1x80.numel
  inb_S20x80_S20x80_0_0 : ∀ a, (![0, 0] : Fin 2 → Nat) a + S20x80.size a ≤ S20x80.size a
  h_S20x80 : 0 < S20x80.numel
  bitsLt_bf16_f32 : FTy.bits .bf16 < FTy.bits .f32
  shapeCasts_S1x80_S1x80 : S1x80.ShapeCasts S1x80
  inb_S20x1_S20x1_0_0 : ∀ a, (![0, 0] : Fin 2 → Nat) a + S20x1.size a ≤ S20x1.size a
  h_S20x1 : 0 < S20x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S2048x1_S2048x80 : S2048x1.Broadcasts S2048x80
  broadcasts_S1x80_S2048x80 : S1x80.Broadcasts S2048x80
  slices_S2048x80_o0_0_S2048x20 : S2048x80.Slices ![0, 0] S2048x20
  slices_S2048x80_o0_20_S2048x20 : S2048x80.Slices ![0, 20] S2048x20
  slices_S2048x80_o0_40_S2048x20 : S2048x80.Slices ![0, 40] S2048x20
  slices_S2048x80_o0_60_S2048x20 : S2048x80.Slices ![0, 60] S2048x20
  broadcasts_S1x1_S2048x1 : S1x1.Broadcasts S2048x1
  shapeCasts_S2097152x1_S2048x1024 : S2097152x1.ShapeCasts S2048x1024
  dot_S2048x20_S20x80_S2048x80_1_0_0_1_n_n_wf : DotDims.WF S2048x20 S20x80 S2048x80 [1] [0] [0] [1] [] []
  dot_S2048x20_S20x1_S2048x1_1_0_0_1_n_n_wf : DotDims.WF S2048x20 S20x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S2097152x1.size a
  hwx0_0 : ∀ i : grid0.Coords, EltTy.bits .f32 = 32 ∨ (Rect.block (s := S2097152x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x20.size a ≤ S2097152x20.size a
  hwx0_1 : ∀ i : grid0.Coords, EltTy.bits .f32 = 32 ∨ (Rect.block (s := S2097152x20) S2048x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x20.size a ≤ S2097152x20.size a
  hwx0_2 : ∀ i : grid0.Coords, EltTy.bits .f32 = 32 ∨ (Rect.block (s := S2097152x20) S2048x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x20.size a ≤ S2097152x20.size a
  hwx0_3 : ∀ i : grid0.Coords, EltTy.bits .f32 = 32 ∨ (Rect.block (s := S2097152x20) S2048x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x20.size a ≤ S2097152x20.size a
  hwx0_4 : ∀ i : grid0.Coords, EltTy.bits .f32 = 32 ∨ (Rect.block (s := S2097152x20) S2048x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x80.size a ≤ S1x80.size a
  hwx0_5 : ∀ i : grid0.Coords, EltTy.bits .f32 = 32 ∨ (Rect.block (s := S1x80) S1x80.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20x80.size a ≤ S20x80.size a
  hwx0_6 : ∀ i : grid0.Coords, EltTy.bits .f32 = 32 ∨ (Rect.block (s := S20x80) S20x80.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x80.size a ≤ S1x80.size a
  hwx0_7 : ∀ i : grid0.Coords, EltTy.bits .f32 = 32 ∨ (Rect.block (s := S1x80) S1x80.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S20x80.size a ≤ S20x80.size a
  hwx0_8 : ∀ i : grid0.Coords, EltTy.bits .f32 = 32 ∨ (Rect.block (s := S20x80) S20x80.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S20x80.size a ≤ S20x80.size a
  hwx0_9 : ∀ i : grid0.Coords, EltTy.bits .f32 = 32 ∨ (Rect.block (s := S20x80) S20x80.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x80.size a ≤ S1x80.size a
  hwx0_10 : ∀ i : grid0.Coords, EltTy.bits .f32 = 32 ∨ (Rect.block (s := S1x80) S1x80.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S20x1.size a ≤ S20x1.size a
  hwx0_11 : ∀ i : grid0.Coords, EltTy.bits .f32 = 32 ∨ (Rect.block (s := S20x1) S20x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x1.size a ≤ S2097152x1.size a
  hwx0_13 : ∀ i : grid0.Coords, EltTy.bits .f32 = 32 ∨ (Rect.block (s := S2097152x1) S2048x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x20.size a ≤ S2097152x20.size a
  hwx0_14 : ∀ i : grid0.Coords, EltTy.bits .f32 = 32 ∨ (Rect.block (s := S2097152x20) S2048x20.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x20.size a ≤ S2097152x20.size a
  hwx0_15 : ∀ i : grid0.Coords, EltTy.bits .f32 = 32 ∨ (Rect.block (s := S2097152x20) S2048x20.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x20.size a ≤ S2097152x20.size a
  hwx0_16 : ∀ i : grid0.Coords, EltTy.bits .f32 = 32 ∨ (Rect.block (s := S2097152x20) S2048x20.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x20.size a ≤ S2097152x20.size a
  hwx0_17 : ∀ i : grid0.Coords, EltTy.bits .f32 = 32 ∨ (Rect.block (s := S2097152x20) S2048x20.size (cc0_transform_17 i) (hinb0_17 i)).WholeWords (EltTy.packing .f32)

variable [Facts₀]

def dot_S2048x20_S20x80_S2048x80_1_0_0_1_n_n : DotDims S2048x20 S20x80 S2048x80 where
  lhsContracting := [1]
  rhsContracting := [0]
  lhsNonContracting := [0]
  rhsNonContracting := [1]
  lhsBatch := []
  rhsBatch := []
  wf := dot_S2048x20_S20x80_S2048x80_1_0_0_1_n_n_wf
def dot_S2048x20_S20x1_S2048x1_1_0_0_1_n_n : DotDims S2048x20 S20x1 S2048x1 where
  lhsContracting := [1]
  rhsContracting := [0]
  lhsNonContracting := [0]
  rhsNonContracting := [1]
  lhsBatch := []
  rhsBatch := []
  wf := dot_S2048x20_S20x1_S2048x1_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x20.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x20.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S20x80.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x80.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S20x80.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S20x80.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x80.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S20x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4_0) S2048x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v4_1) S2048x20.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v4_2) S2048x20.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v4_3) S2048x20.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v4_4) S2048x20.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S2097152x20 : Shape := ⟨2, ![2097152, 20]⟩
abbrev S1x80 : Shape := ⟨2, ![1, 80]⟩
abbrev S20x80 : Shape := ⟨2, ![20, 80]⟩
abbrev S80 : Shape := ⟨1, ![80]⟩
abbrev S20x1 : Shape := ⟨2, ![20, 1]⟩
abbrev S1 : Shape := ⟨1, ![1]⟩
abbrev S2097152x1 : Shape := ⟨2, ![2097152, 1]⟩
abbrev S2097152x80 : Shape := ⟨2, ![2097152, 80]⟩
abbrev S_ : Shape := ⟨0, ![]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2097152x20, .f32⟩
  | .hbm, ⟨2, _⟩ => ⟨S2097152x20, .f32⟩
  | .hbm, ⟨3, _⟩ => ⟨S2097152x20, .f32⟩
  | .hbm, ⟨4, _⟩ => ⟨S2097152x20, .f32⟩
  | .hbm, ⟨5, _⟩ => ⟨S1x80, .f32⟩
  | .hbm, ⟨6, _⟩ => ⟨S20x80, .f32⟩
  | .hbm, ⟨7, _⟩ => ⟨S80, .f32⟩
  | .hbm, ⟨8, _⟩ => ⟨S20x80, .f32⟩
  | .hbm, ⟨9, _⟩ => ⟨S20x80, .f32⟩
  | .hbm, ⟨10, _⟩ => ⟨S80, .f32⟩
  | .hbm, ⟨11, _⟩ => ⟨S20x1, .f32⟩
  | .hbm, ⟨12, _⟩ => ⟨S1, .f32⟩
  | .hbm, ⟨13, _⟩ => ⟨S2097152x1, .f32⟩
  | .hbm, ⟨14, _⟩ => ⟨S2097152x80, .f32⟩
  | .hbm, ⟨15, _⟩ => ⟨S2097152x80, .f32⟩
  | .hbm, ⟨16, _⟩ => ⟨S2097152x80, .f32⟩
  | .hbm, ⟨17, _⟩ => ⟨S1x80, .f32⟩
  | .hbm, ⟨18, _⟩ => ⟨S2097152x80, .f32⟩
  | .hbm, ⟨19, _⟩ => ⟨S2097152x80, .f32⟩
  | .hbm, ⟨20, _⟩ => ⟨S2097152x20, .f32⟩
  | .hbm, ⟨21, _⟩ => ⟨S2097152x20, .f32⟩
  | .hbm, ⟨22, _⟩ => ⟨S2097152x20, .f32⟩
  | .hbm, ⟨23, _⟩ => ⟨S_, .f32⟩
  | .hbm, ⟨24, _⟩ => ⟨S2097152x20, .f32⟩
  | .hbm, ⟨25, _⟩ => ⟨S2097152x20, .f32⟩
  | .hbm, ⟨26, _⟩ => ⟨S_, .f32⟩
  | .hbm, ⟨27, _⟩ => ⟨S2097152x20, .f32⟩
  | .hbm, ⟨28, _⟩ => ⟨S2097152x20, .f32⟩
  | .hbm, ⟨29, _⟩ => ⟨S2097152x20, .f32⟩
  | .hbm, ⟨30, _⟩ => ⟨S2097152x20, .f32⟩
  | .hbm, ⟨31, _⟩ => ⟨S2097152x20, .f32⟩
  | .hbm, ⟨32, _⟩ => ⟨S_, .f32⟩
  | .hbm, ⟨33, _⟩ => ⟨S2097152x20, .f32⟩
  | .hbm, ⟨34, _⟩ => ⟨S2097152x20, .f32⟩
  | .hbm, ⟨35, _⟩ => ⟨S_, .f32⟩
  | .hbm, ⟨36, _⟩ => ⟨S2097152x20, .f32⟩
  | .hbm, ⟨37, _⟩ => ⟨S2097152x20, .f32⟩
  | .hbm, ⟨38, _⟩ => ⟨S2097152x20, .f32⟩
  | .hbm, ⟨39, _⟩ => ⟨S2097152x20, .f32⟩
  | .hbm, ⟨40, _⟩ => ⟨S2097152x20, .f32⟩
  | .hbm, ⟨41, _⟩ => ⟨S2097152x20, .f32⟩
  | .hbm, ⟨42, _⟩ => ⟨S2097152x20, .f32⟩
  | .hbm, ⟨43, _⟩ => ⟨S_, .f32⟩
  | .hbm, ⟨44, _⟩ => ⟨S2097152x20, .f32⟩
  | .hbm, ⟨45, _⟩ => ⟨S2097152x20, .f32⟩
  | .hbm, ⟨46, _⟩ => ⟨S_, .f32⟩
  | .hbm, ⟨47, _⟩ => ⟨S2097152x20, .f32⟩
  | .hbm, ⟨48, _⟩ => ⟨S2097152x20, .f32⟩
  | .hbm, ⟨49, _⟩ => ⟨S2097152x20, .f32⟩
  | .hbm, ⟨50, _⟩ => ⟨S2097152x20, .f32⟩
  | .hbm, ⟨51, _⟩ => ⟨S2097152x20, .f32⟩
  | .hbm, ⟨52, _⟩ => ⟨S2097152x20, .f32⟩
  | .hbm, ⟨53, _⟩ => ⟨S2097152x20, .f32⟩
  | .hbm, ⟨54, _⟩ => ⟨S2097152x80, .f32⟩
  | .hbm, ⟨55, _⟩ => ⟨S2097152x80, .f32⟩
  | .hbm, ⟨56, _⟩ => ⟨S2097152x80, .f32⟩
  | .hbm, ⟨57, _⟩ => ⟨S1x80, .f32⟩
  | .hbm, ⟨58, _⟩ => ⟨S2097152x80, .f32⟩
  | .hbm, ⟨59, _⟩ => ⟨S2097152x80, .f32⟩
  | .hbm, ⟨60, _⟩ => ⟨S2097152x20, .f32⟩
  | .hbm, ⟨61, _⟩ => ⟨S2097152x20, .f32⟩
  | .hbm, ⟨62, _⟩ => ⟨S2097152x20, .f32⟩
  | .hbm, ⟨63, _⟩ => ⟨S_, .f32⟩
  | .hbm, ⟨64, _⟩ => ⟨S2097152x20, .f32⟩
  | .hbm, ⟨65, _⟩ => ⟨S2097152x20, .f32⟩
  | .hbm, ⟨66, _⟩ => ⟨S_, .f32⟩
  | .hbm, ⟨67, _⟩ => ⟨S2097152x20, .f32⟩
  | .hbm, ⟨68, _⟩ => ⟨S2097152x20, .f32⟩
  | .hbm, ⟨69, _⟩ => ⟨S2097152x20, .f32⟩
  | .hbm, ⟨70, _⟩ => ⟨S2097152x20, .f32⟩
  | .hbm, ⟨71, _⟩ => ⟨S2097152x20, .f32⟩
  | .hbm, ⟨72, _⟩ => ⟨S_, .f32⟩
  | .hbm, ⟨73, _⟩ => ⟨S2097152x20, .f32⟩
  | .hbm, ⟨74, _⟩ => ⟨S2097152x20, .f32⟩
  | .hbm, ⟨75, _⟩ => ⟨S_, .f32⟩
  | .hbm, ⟨76, _⟩ => ⟨S2097152x20, .f32⟩
  | .hbm, ⟨77, _⟩ => ⟨S2097152x20, .f32⟩
  | .hbm, ⟨78, _⟩ => ⟨S2097152x20, .f32⟩
  | .hbm, ⟨79, _⟩ => ⟨S2097152x20, .f32⟩
  | .hbm, ⟨80, _⟩ => ⟨S2097152x20, .f32⟩
  | .hbm, ⟨81, _⟩ => ⟨S2097152x20, .f32⟩
  | .hbm, ⟨82, _⟩ => ⟨S2097152x20, .f32⟩
  | .hbm, ⟨83, _⟩ => ⟨S_, .f32⟩
  | .hbm, ⟨84, _⟩ => ⟨S2097152x20, .f32⟩
  | .hbm, ⟨85, _⟩ => ⟨S2097152x20, .f32⟩
  | .hbm, ⟨86, _⟩ => ⟨S_, .f32⟩
  | .hbm, ⟨87, _⟩ => ⟨S2097152x20, .f32⟩
  | .hbm, ⟨88, _⟩ => ⟨S2097152x20, .f32⟩
  | .hbm, ⟨89, _⟩ => ⟨S2097152x20, .f32⟩
  | .hbm, ⟨90, _⟩ => ⟨S2097152x20, .f32⟩
  | .hbm, ⟨91, _⟩ => ⟨S2097152x20, .f32⟩
  | .hbm, ⟨92, _⟩ => ⟨S2097152x20, .f32⟩
  | .hbm, ⟨93, _⟩ => ⟨S2097152x20, .f32⟩
  | .hbm, ⟨94, _⟩ => ⟨S2097152x1, .f32⟩
  | .hbm, ⟨95, _⟩ => ⟨S1x1, .f32⟩
  | .hbm, ⟨96, _⟩ => ⟨S2097152x1, .f32⟩
  | .hbm, ⟨97, _⟩ => ⟨S2097152x1, .f32⟩
  | .hbm, ⟨98, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]

class Facts₀ : Prop where
  shapeCasts_S2048x1024_S2097152x1 : S2048x1024.ShapeCasts S2097152x1
  bcast_S80_S1x80_1 : S80.BroadcastsInDim S1x80 (![1] : Fin 1 → Fin S1x80.rank)
  bcast_S1x80_S2097152x80_0_1 : S1x80.BroadcastsInDim S2097152x80 (![0, 1] : Fin 2 → Fin S2097152x80.rank)
  slices_S2097152x80_S2097152x20_0_0 : S2097152x80.Slices ![0, 0] S2097152x20
  bcast_S_S2097152x20 : S_.BroadcastsInDim S2097152x20 (![] : Fin 0 → Fin S2097152x20.rank)
  slices_S2097152x80_S2097152x20_0_20 : S2097152x80.Slices ![0, 20] S2097152x20
  slices_S2097152x80_S2097152x20_0_40 : S2097152x80.Slices ![0, 40] S2097152x20
  slices_S2097152x80_S2097152x20_0_60 : S2097152x80.Slices ![0, 60] S2097152x20
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  shapeCasts_S2097152x1_S2048x1024 : S2097152x1.ShapeCasts S2048x1024
  dot_S2097152x1_S1x80_S2097152x80_1_0_0_1_n_n_wf : DotDims.WF S2097152x1 S1x80 S2097152x80 [1] [0] [0] [1] [] []
  dot_S2097152x20_S20x80_S2097152x80_1_0_0_1_n_n_wf : DotDims.WF S2097152x20 S20x80 S2097152x80 [1] [0] [0] [1] [] []
  dot_S2097152x20_S20x1_S2097152x1_1_0_0_1_n_n_wf : DotDims.WF S2097152x20 S20x1 S2097152x1 [1] [0] [0] [1] [] []

variable [Facts₀]

def dot_S2097152x1_S1x80_S2097152x80_1_0_0_1_n_n : DotDims S2097152x1 S1x80 S2097152x80 where
  lhsContracting := [1]
  rhsContracting := [0]
  lhsNonContracting := [0]
  rhsNonContracting := [1]
  lhsBatch := []
  rhsBatch := []
  wf := dot_S2097152x1_S1x80_S2097152x80_1_0_0_1_n_n_wf
def dot_S2097152x20_S20x80_S2097152x80_1_0_0_1_n_n : DotDims S2097152x20 S20x80 S2097152x80 where
  lhsContracting := [1]
  rhsContracting := [0]
  lhsNonContracting := [0]
  rhsNonContracting := [1]
  lhsBatch := []
  rhsBatch := []
  wf := dot_S2097152x20_S20x80_S2097152x80_1_0_0_1_n_n_wf
def dot_S2097152x20_S20x1_S2097152x1_1_0_0_1_n_n : DotDims S2097152x20 S20x1 S2097152x1 where
  lhsContracting := [1]
  rhsContracting := [0]
  lhsNonContracting := [0]
  rhsNonContracting := [1]
  lhsBatch := []
  rhsBatch := []
  wf := dot_S2097152x20_S20x1_S2097152x1_1_0_0_1_n_n_wf

class Facts : Prop extends Facts₀ where

variable [Facts]
-- ==== Proof.Spec.lean ====
/-
  Two stacked LSTM cells and a dense head, one row at a time, over the extended reals.

  A row carries a scalar input `x`, two hidden states `h0 h1` and two cell states `c0 c1` of width 20. A cell's four
  gates (input, forget, candidate, output) are the four bands of width 20 of one pre-activation row of width 80,
  `z q = a q + Σₖ h k · U k q + b q`, where `a` is the cell's input already multiplied by its input weights. The new
  cell state is  σ(z_f) · c + σ(z_i) · tanh(z_g)  and the new hidden state  σ(z_o) · tanh(c_new),  with
  σ x = 1 / (1 + e⁻ˣ). The first cell's input term is the product `x · W0 q` (a contraction over one index); the second
  cell's is  Σₖ h0_new k · W1 k q. The head is  Σₖ h1_new k · Wd k + bd.  Nothing here needs the inputs finite: only
  sums, products and the three functions σ, tanh, exp of the extended reals are used, each applied the same way on both
  sides of the comparison.

  A matrix is then such a function of its row: `ofRows g` is the array whose entry (n, j) is `g n j`.
-/
import Idealize.ShloMosaic.PureOps.Ideal
import Idealize.ShloMosaic.Lib.ValueIdx

noncomputable section

namespace Cert.Lstm

open Idealize.ShloMosaic Idealize.ShloMosaic.ValueIdx

/-- Column `o + j` of a row of four gate bands of width 20. -/
def band (o : Nat) (j : Fin 20) (h : o ≤ 60 := by omega) : Fin 80 := ⟨o + j.val, by have := j.isLt; omega⟩

/-- A cell's pre-activation row: the input term, the recurrent product and the bias. -/
def pre (a : Fin 80 → EReal) (h : Fin 20 → EReal) (U : Fin 20 → Fin 80 → EReal) (b : Fin 80 → EReal) (q : Fin 80) : EReal :=
  a q + ∑ k : Fin 20, h k * U k q + b q

/-- The new cell state: forget gate times the old state plus input gate times candidate. -/
def cellC (z : Fin 80 → EReal) (c : Fin 20 → EReal) (j : Fin 20) : EReal :=
  Ideal.logistic (z (band 20 j)) * c j + Ideal.logistic (z (band 0 j)) * Ideal.tanh (z (band 40 j))

/-- The new hidden state: output gate times tanh of the new cell state. -/
def cellH (z : Fin 80 → EReal) (c : Fin 20 → EReal) (j : Fin 20) : EReal :=
  Ideal.logistic (z (band 60 j)) * Ideal.tanh (cellC z c j)

section Row

variable (x : EReal) (h0 c0 h1 c1 : Fin 20 → EReal) (W0 : Fin 80 → EReal) (U0 : Fin 20 → Fin 80 → EReal)
  (b0 : Fin 80 → EReal) (W1 U1 : Fin 20 → Fin 80 → EReal) (b1 : Fin 80 → EReal) (Wd : Fin 20 → EReal) (bd : EReal)

/-- First cell, pre-activation. -/
def z0 : Fin 80 → EReal := pre (fun q => x * W0 q) h0 U0 b0
/-- First cell, new cell state. -/
def c0n : Fin 20 → EReal := cellC (z0 x h0 W0 U0 b0) c0
/-- First cell, new hidden state. -/
def h0n : Fin 20 → EReal := cellH (z0 x h0 W0 U0 b0) c0
/-- Second cell, pre-activation: its input is the first cell's new hidden state. -/
def z1 : Fin 80 → EReal := pre (fun q => ∑ k : Fin 20, h0n x h0 c0 W0 U0 b0 k * W1 k q) h1 U1 b1
/-- Second cell, new cell state. -/
def c1n : Fin 20 → EReal := cellC (z1 x h0 c0 h1 W0 U0 b0 W1 U1 b1) c1
/-- Second cell, new hidden state. -/
def h1n : Fin 20 → EReal := cellH (z1 x h0 c0 h1 W0 U0 b0 W1 U1 b1) c1
/-- The head. -/
def head : EReal := ∑ k : Fin 20, h1n x h0 c0 h1 c1 W0 U0 b0 W1 U1 b1 k * Wd k + bd

end Row

/-- The matrix whose entry (n, j) is `g n j`. -/
def ofRows {a b : Nat} (g : Fin a → Fin b → EReal) : (⟨2, ![a, b]⟩ : Shape).Idx → EReal := fun i => g (i 0) (i 1)

@[simp] theorem ofRows_ix2 {a b : Nat} (g : Fin a → Fin b → EReal) (n : Fin a) (j : Fin b) : ofRows g (ix2 n j) = g n j := rfl

/-! ## The five results as arrays over all 2097152 rows

The arguments in the order of the entry point: the input column `X` (the input matrix laid out as one column), the four
state arrays, then each cell's input weights, recurrent weights and bias, then the head's weights and bias. -/

section Arrays

variable (X : (⟨2, ![2097152, 1]⟩ : Shape).Idx → EReal) (H0 C0 H1 C1 : (⟨2, ![2097152, 20]⟩ : Shape).Idx → EReal)
  (W0 : (⟨2, ![1, 80]⟩ : Shape).Idx → EReal) (U0 : (⟨2, ![20, 80]⟩ : Shape).Idx → EReal) (B0 : (⟨1, ![80]⟩ : Shape).Idx → EReal)
  (W1 U1 : (⟨2, ![20, 80]⟩ : Shape).Idx → EReal) (B1 : (⟨1, ![80]⟩ : Shape).Idx → EReal)
  (Wd : (⟨2, ![20, 1]⟩ : Shape).Idx → EReal) (Bd : (⟨1, ![1]⟩ : Shape).Idx → EReal)

/-- The first cell's new hidden state, all rows. -/
def arrH0 : (⟨2, ![2097152, 20]⟩ : Shape).Idx → EReal := ofRows fun n j =>
  h0n (X (ix2 n 0)) (fun k => H0 (ix2 n k)) (fun k => C0 (ix2 n k)) (fun q => W0 (ix2 0 q)) (fun k q => U0 (ix2 k q)) (fun q => B0 (ix1 q)) j
/-- The first cell's new cell state, all rows. -/
def arrC0 : (⟨2, ![2097152, 20]⟩ : Shape).Idx → EReal := ofRows fun n j =>
  c0n (X (ix2 n 0)) (fun k => H0 (ix2 n k)) (fun k => C0 (ix2 n k)) (fun q => W0 (ix2 0 q)) (fun k q => U0 (ix2 k q)) (fun q => B0 (ix1 q)) j
/-- The second cell's new hidden state, all rows. -/
def arrH1 : (⟨2, ![2097152, 20]⟩ : Shape).Idx → EReal := ofRows fun n j =>
  h1n (X (ix2 n 0)) (fun k => H0 (ix2 n k)) (fun k => C0 (ix2 n k)) (fun k => H1 (ix2 n k)) (fun k => C1 (ix2 n k)) (fun q => W0 (ix2 0 q))
    (fun k q => U0 (ix2 k q)) (fun q => B0 (ix1 q)) (fun k q => W1 (ix2 k q)) (fun k q => U1 (ix2 k q)) (fun q => B1 (ix1 q)) j
/-- The second cell's new cell state, all rows. -/
def arrC1 : (⟨2, ![2097152, 20]⟩ : Shape).Idx → EReal := ofRows fun n j =>
  c1n (X (ix2 n 0)) (fun k => H0 (ix2 n k)) (fun k => C0 (ix2 n k)) (fun k => H1 (ix2 n k)) (fun k => C1 (ix2 n k)) (fun q => W0 (ix2 0 q))
    (fun k q => U0 (ix2 k q)) (fun q => B0 (ix1 q)) (fun k q => W1 (ix2 k q)) (fun k q => U1 (ix2 k q)) (fun q => B1 (ix1 q)) j
/-- The head's output, one column over all rows. -/
def arrOut : (⟨2, ![2097152, 1]⟩ : Shape).Idx → EReal := ofRows fun n u =>
  head (X (ix2 n 0)) (fun k => H0 (ix2 n k)) (fun k => C0 (ix2 n k)) (fun k => H1 (ix2 n k)) (fun k => C1 (ix2 n k)) (fun q => W0 (ix2 0 q))
    (fun k q => U0 (ix2 k q)) (fun q => B0 (ix1 q)) (fun k q => W1 (ix2 k q)) (fun k q => U1 (ix2 k q)) (fun q => B1 (ix1 q))
    (fun k => Wd (ix2 k u)) (Bd (ix1 (0 : Fin 1)))

end Arrays

end Cert.Lstm

end
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.LibKeepdims.lean ====
/-
  Keepdims layouts read at an index, for values of any element type.

  A reduction written with `keepdims=True` leaves a unit axis behind and is then broadcast back over the
  reduced axis. Two of the layout steps this produces are read here at an index given by coordinates:

  * a vector `[a]` recast as a column `[a, 1]` holds, at `(i, u)`, the vector's entry `i` (the unit
    coordinate `u` can only be `0`, and the row-major positions `i` and `i * 1 + u` agree);
  * a column `[a, 1]` broadcast to `[a, b]` holds, at `(p, c)`, the column's entry `(p, 0)`: the unit axis
    is read at `0`, the other axis at the same coordinate (when `a = 1` that coordinate is `0` anyway).

  Together with the row forms (`[a] → [1, a]` and `[1, b] → [a, b]`) of the layout library these cover both
  operands of `rowsum[:, None] + colsum[None, :]`.
-/
import Idealize.ShloMosaic.Lib.ValueLayout

namespace KeepdimsLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsLayout
-- ==== Proof.KernelRow.lean ====
/-
  The kernel body's values, row by row, at the ideal values.

  The body computes on blocks of 2048 rows. Every value it stores is a function of ONE row of each block operand and of
  the (whole) weight operands: the three matrix products contract a row of the left operand with the weights, every other
  operation is pointwise or a cut of a band of 20 columns out of a row of 80. Read at (p, j), each stored value is the
  row function of `Cert.Lstm` applied to row p of the loaded blocks. A narrowing of the float format is the identity on
  the extended reals, so the bf16 operands of the products are the f32 values themselves.
-/
import proofs.«160223_j81449759801976_1_alg».proof.Proof.Gen.KernelIdeal.Skeleton
import proofs.«160223_j81449759801976_1_alg».proof.Proof.Spec
import proofs.«160223_j81449759801976_1_alg».proof.Proof.LibMatmul2
import proofs.«160223_j81449759801976_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.Lstm.KernelRow

open Cert.KernelIdeal Cert.KernelIdeal.Gen Idealize.ShloMosaic Idealize.ShloMosaic.ValueIdx

/-! ## The two products -/

abbrev D80 := dot_S2048x20_S20x80_S2048x80_1_0_0_1_n_n
abbrev D1 := dot_S2048x20_S20x1_S2048x1_1_0_0_1_n_n

theorem lhs80_0 (i : S2048x80.Idx) (q : dot_S2048x20_S20x80_S2048x80_1_0_0_1_n_n.contr.Idx) :
    (dot_S2048x20_S20x80_S2048x80_1_0_0_1_n_n.lhsIdx i q 0).val = (i 0).val := by
  unfold DotDims.lhsIdx
  rw [dif_neg (show ¬(0 : Fin S2048x20.rank) ∈ dot_S2048x20_S20x80_S2048x80_1_0_0_1_n_n.lhsBatch by decide), dif_pos (show (0 : Fin S2048x20.rank) ∈ dot_S2048x20_S20x80_S2048x80_1_0_0_1_n_n.lhsNonContracting by decide)]
  rfl
theorem lhs80_1 (i : S2048x80.Idx) (q : dot_S2048x20_S20x80_S2048x80_1_0_0_1_n_n.contr.Idx) :
    (dot_S2048x20_S20x80_S2048x80_1_0_0_1_n_n.lhsIdx i q 1).val = (q ⟨0, by decide⟩).val :=
  dot_S2048x20_S20x80_S2048x80_1_0_0_1_n_n.lhsIdx_val_of_single rfl i q
theorem rhs80_0 (i : S2048x80.Idx) (q : dot_S2048x20_S20x80_S2048x80_1_0_0_1_n_n.contr.Idx) :
    (dot_S2048x20_S20x80_S2048x80_1_0_0_1_n_n.rhsIdx i q 0).val = (q ⟨0, by decide⟩).val :=
  dot_S2048x20_S20x80_S2048x80_1_0_0_1_n_n.rhsIdx_val_of_single rfl i q
theorem rhs80_1 (i : S2048x80.Idx) (q : dot_S2048x20_S20x80_S2048x80_1_0_0_1_n_n.contr.Idx) :
    (dot_S2048x20_S20x80_S2048x80_1_0_0_1_n_n.rhsIdx i q 1).val = (i 1).val := by
  unfold DotDims.rhsIdx
  rw [dif_neg (show ¬(1 : Fin S20x80.rank) ∈ dot_S2048x20_S20x80_S2048x80_1_0_0_1_n_n.rhsBatch by decide), dif_pos (show (1 : Fin S20x80.rank) ∈ dot_S2048x20_S20x80_S2048x80_1_0_0_1_n_n.rhsNonContracting by decide)]
  rfl

/-- A block of 2048 rows times a 20 × 80 weight matrix, into zero: entry (p, q) is Σₖ a (p, k) · b (k, q). -/
theorem mm80 {φ₁ φ₂ : FTy} (a : FVec Ideal S2048x20 φ₁) (b : FVec Ideal S20x80 φ₂) (p : Fin 2048) (q : Fin 80) :
    matmul dot_S2048x20_S20x80_S2048x80_1_0_0_1_n_n none a b (constant S2048x80 .f32 0x00000000#32) (ix2 p q)
      = ∑ k : Fin 20, a (ix2 p k) * b (ix2 k q) :=
  Cert.LibMatmul2.matmul_zero_apply dot_S2048x20_S20x80_S2048x80_1_0_0_1_n_n rfl rfl lhs80_0 lhs80_1 rhs80_0 rhs80_1 a b p q

theorem lhs1_0 (i : S2048x1.Idx) (q : dot_S2048x20_S20x1_S2048x1_1_0_0_1_n_n.contr.Idx) :
    (dot_S2048x20_S20x1_S2048x1_1_0_0_1_n_n.lhsIdx i q 0).val = (i 0).val := by
  unfold DotDims.lhsIdx
  rw [dif_neg (show ¬(0 : Fin S2048x20.rank) ∈ dot_S2048x20_S20x1_S2048x1_1_0_0_1_n_n.lhsBatch by decide), dif_pos (show (0 : Fin S2048x20.rank) ∈ dot_S2048x20_S20x1_S2048x1_1_0_0_1_n_n.lhsNonContracting by decide)]
  rfl
theorem lhs1_1 (i : S2048x1.Idx) (q : dot_S2048x20_S20x1_S2048x1_1_0_0_1_n_n.contr.Idx) :
    (dot_S2048x20_S20x1_S2048x1_1_0_0_1_n_n.lhsIdx i q 1).val = (q ⟨0, by decide⟩).val :=
  dot_S2048x20_S20x1_S2048x1_1_0_0_1_n_n.lhsIdx_val_of_single rfl i q
theorem rhs1_0 (i : S2048x1.Idx) (q : dot_S2048x20_S20x1_S2048x1_1_0_0_1_n_n.contr.Idx) :
    (dot_S2048x20_S20x1_S2048x1_1_0_0_1_n_n.rhsIdx i q 0).val = (q ⟨0, by decide⟩).val :=
  dot_S2048x20_S20x1_S2048x1_1_0_0_1_n_n.rhsIdx_val_of_single rfl i q
theorem rhs1_1 (i : S2048x1.Idx) (q : dot_S2048x20_S20x1_S2048x1_1_0_0_1_n_n.contr.Idx) :
    (dot_S2048x20_S20x1_S2048x1_1_0_0_1_n_n.rhsIdx i q 1).val = (i 1).val := by
  unfold DotDims.rhsIdx
  rw [dif_neg (show ¬(1 : Fin S20x1.rank) ∈ dot_S2048x20_S20x1_S2048x1_1_0_0_1_n_n.rhsBatch by decide), dif_pos (show (1 : Fin S20x1.rank) ∈ dot_S2048x20_S20x1_S2048x1_1_0_0_1_n_n.rhsNonContracting by decide)]
  rfl

/-- A block of 2048 rows times the 20 × 1 head weights, into zero: entry (p, u) is Σₖ a (p, k) · b (k, u). -/
theorem mm1 {φ₁ φ₂ : FTy} (a : FVec Ideal S2048x20 φ₁) (b : FVec Ideal S20x1 φ₂) (p : Fin 2048) (u : Fin 1) :
    matmul dot_S2048x20_S20x1_S2048x1_1_0_0_1_n_n none a b (constant S2048x1 .f32 0x00000000#32) (ix2 p u)
      = ∑ k : Fin 20, a (ix2 p k) * b (ix2 k u) :=
  Cert.LibMatmul2.matmul_zero_apply dot_S2048x20_S20x1_S2048x1_1_0_0_1_n_n rfl rfl lhs1_0 lhs1_1 rhs1_0 rhs1_1 a b p u

/-! ## A band of 20 columns of a row of 80 -/

theorem cut0 (Z : FVec Ideal S2048x80 .f32) (p : Fin 2048) (j : Fin 20) :
    extractStridedSlice S2048x20 ![0, 0] Z slices_S2048x80_o0_0_S2048x20 (ix2 p j) = Z (ix2 p (band 0 j)) :=
  slice2_axis1_apply 0 Z slices_S2048x80_o0_0_S2048x20 p j (band 0 j) rfl
theorem cut20 (Z : FVec Ideal S2048x80 .f32) (p : Fin 2048) (j : Fin 20) :
    extractStridedSlice S2048x20 ![0, 20] Z slices_S2048x80_o0_20_S2048x20 (ix2 p j) = Z (ix2 p (band 20 j)) :=
  slice2_axis1_apply 20 Z slices_S2048x80_o0_20_S2048x20 p j (band 20 j) rfl
theorem cut40 (Z : FVec Ideal S2048x80 .f32) (p : Fin 2048) (j : Fin 20) :
    extractStridedSlice S2048x20 ![0, 40] Z slices_S2048x80_o0_40_S2048x20 (ix2 p j) = Z (ix2 p (band 40 j)) :=
  slice2_axis1_apply 40 Z slices_S2048x80_o0_40_S2048x20 p j (band 40 j) rfl
theorem cut60 (Z : FVec Ideal S2048x80 .f32) (p : Fin 2048) (j : Fin 20) :
    extractStridedSlice S2048x20 ![0, 60] Z slices_S2048x80_o0_60_S2048x20 (ix2 p j) = Z (ix2 p (band 60 j)) :=
  slice2_axis1_apply 60 Z slices_S2048x80_o0_60_S2048x20 p j (band 60 j) rfl

/-! ## The stored values, one operation tree at a time -/

section Pay

variable (v0 : FVec Ideal S2048x1 .f32) (v2 v3 v4 v5 : FVec Ideal S2048x20 .f32) (v6 v9 v15 : FVec Ideal S1x80 .f32)
  (v7 v11 v13 : FVec Ideal S20x80 .f32) (v17 : FVec Ideal S20x1 .f32) (v19 : FVec Ideal S1x1 .f32)
  (v12 v14 : FVec Ideal S20x80 .bf16) (v16 : FVec Ideal S1x80 .f32) (v18 : FVec Ideal S20x1 .bf16) (v20 : FVec Ideal S1x1 .f32)
  (v28 : FVec Ideal S2048x80 .f32) (v30 v31 : FVec Ideal S2048x20 .f32) (p : Fin 2048)

/-- First cell's pre-activation at (p, q). -/
theorem pay12_apply (q : Fin 80) :
    k0_pay12 (F := Ideal) v0 v2 v6 v7 v9 (ix2 p q)
      = v0 (ix2 p 0) * v6 (ix2 0 q) + ∑ k : Fin 20, v2 (ix2 p k) * v7 (ix2 k q) + v9 (ix2 0 q) := by
  unfold k0_pay12
  show broadcastTo S2048x80 (shapeCast S2048x1 v0 shapeCasts_S2048x1_S2048x1) broadcasts_S2048x1_S2048x80 (ix2 p q)
      * broadcastTo S2048x80 v6 broadcasts_S1x80_S2048x80 (ix2 p q)
      + matmul dot_S2048x20_S20x80_S2048x80_1_0_0_1_n_n none (truncf .bf16 v2 bitsLt_bf16_f32) (truncf .bf16 v7 bitsLt_bf16_f32) (constant S2048x80 .f32 0x00000000#32) (ix2 p q)
      + broadcastTo S2048x80 (shapeCast S1x80 v9 shapeCasts_S1x80_S1x80) broadcasts_S1x80_S2048x80 (ix2 p q) = _
  rw [shapeCast_self, shapeCast_self, KeepdimsLayout.broadcastTo_a1_ab_apply, broadcastTo_1b_ab_apply, broadcastTo_1b_ab_apply, mm80]
  rfl

/-- First cell's input gate at (p, j): σ of band 0 of the pre-activation. -/
theorem pay13_apply (j : Fin 20) :
    k0_pay13 (F := Ideal) v0 v2 v6 v7 v9 (ix2 p j) = Ideal.logistic (k0_pay12 (F := Ideal) v0 v2 v6 v7 v9 (ix2 p (band 0 j))) := by
  unfold k0_pay13
  show Ideal.logistic (extractStridedSlice S2048x20 ![0, 0] (k0_pay12 (F := Ideal) v0 v2 v6 v7 v9) slices_S2048x80_o0_0_S2048x20 (ix2 p j)) = _
  rw [cut0]

/-- First cell's forget band at (p, j), before σ. -/
theorem pay14_apply (j : Fin 20) :
    k0_pay14 (F := Ideal) v0 v2 v6 v7 v9 (ix2 p j) = k0_pay12 (F := Ideal) v0 v2 v6 v7 v9 (ix2 p (band 20 j)) := by
  unfold k0_pay14
  exact cut20 _ p j

/-- A cell's new cell state at (p, j), from its pre-activation `v28`, its input gate `v30` and its forget band `v31`. -/
theorem pay1_apply (j : Fin 20) :
    k0_pay1 (F := Ideal) v3 v28 v30 v31 (ix2 p j)
      = Ideal.logistic (v31 (ix2 p j)) * v3 (ix2 p j) + v30 (ix2 p j) * Ideal.tanh (v28 (ix2 p (band 40 j))) := by
  unfold k0_pay1
  show Ideal.logistic (v31 (ix2 p j)) * v3 (ix2 p j)
      + v30 (ix2 p j) * Ideal.tanh (extractStridedSlice S2048x20 ![0, 40] v28 slices_S2048x80_o0_40_S2048x20 (ix2 p j)) = _
  rw [cut40]

/-- The new hidden state at (p, j). -/
theorem pay2_apply (j : Fin 20) :
    k0_pay2 (F := Ideal) v3 v28 v30 v31 (ix2 p j)
      = Ideal.logistic (v28 (ix2 p (band 60 j))) * Ideal.tanh (k0_pay1 (F := Ideal) v3 v28 v30 v31 (ix2 p j)) := by
  unfold k0_pay2
  show Ideal.logistic (extractStridedSlice S2048x20 ![0, 60] v28 slices_S2048x80_o0_60_S2048x20 (ix2 p j))
      * Ideal.tanh (k0_pay1 (F := Ideal) v3 v28 v30 v31 (ix2 p j)) = _
  rw [cut60]

/-- Second cell's pre-activation at (p, q). -/
theorem pay3_apply (q : Fin 80) :
    k0_pay3 (F := Ideal) v3 v4 v12 v14 v16 v28 v30 v31 (ix2 p q)
      = ∑ k : Fin 20, k0_pay2 (F := Ideal) v3 v28 v30 v31 (ix2 p k) * v12 (ix2 k q)
        + ∑ k : Fin 20, v4 (ix2 p k) * v14 (ix2 k q) + v16 (ix2 0 q) := by
  unfold k0_pay3
  show matmul dot_S2048x20_S20x80_S2048x80_1_0_0_1_n_n none (truncf .bf16 (k0_pay2 (F := Ideal) v3 v28 v30 v31) bitsLt_bf16_f32) v12 (constant S2048x80 .f32 0x00000000#32) (ix2 p q)
      + matmul dot_S2048x20_S20x80_S2048x80_1_0_0_1_n_n none (truncf .bf16 v4 bitsLt_bf16_f32) v14 (constant S2048x80 .f32 0x00000000#32) (ix2 p q)
      + broadcastTo S2048x80 v16 broadcasts_S1x80_S2048x80 (ix2 p q) = _
  rw [broadcastTo_1b_ab_apply, mm80, mm80]
  rfl

/-- Second cell's new cell state at (p, j). -/
theorem pay4_apply (j : Fin 20) :
    k0_pay4 (F := Ideal) v3 v4 v5 v12 v14 v16 v28 v30 v31 (ix2 p j)
      = Ideal.logistic (k0_pay3 (F := Ideal) v3 v4 v12 v14 v16 v28 v30 v31 (ix2 p (band 20 j))) * v5 (ix2 p j)
        + Ideal.logistic (k0_pay3 (F := Ideal) v3 v4 v12 v14 v16 v28 v30 v31 (ix2 p (band 0 j)))
          * Ideal.tanh (k0_pay3 (F := Ideal) v3 v4 v12 v14 v16 v28 v30 v31 (ix2 p (band 40 j))) := by
  unfold k0_pay4
  show Ideal.logistic (extractStridedSlice S2048x20 ![0, 20] (k0_pay3 (F := Ideal) v3 v4 v12 v14 v16 v28 v30 v31) slices_S2048x80_o0_20_S2048x20 (ix2 p j)) * v5 (ix2 p j)
      + Ideal.logistic (extractStridedSlice S2048x20 ![0, 0] (k0_pay3 (F := Ideal) v3 v4 v12 v14 v16 v28 v30 v31) slices_S2048x80_o0_0_S2048x20 (ix2 p j))
        * Ideal.tanh (extractStridedSlice S2048x20 ![0, 40] (k0_pay3 (F := Ideal) v3 v4 v12 v14 v16 v28 v30 v31) slices_S2048x80_o0_40_S2048x20 (ix2 p j)) = _
  rw [cut20, cut0, cut40]

/-- Second cell's new hidden state at (p, j). -/
theorem pay5_apply (j : Fin 20) :
    k0_pay5 (F := Ideal) v3 v4 v5 v12 v14 v16 v28 v30 v31 (ix2 p j)
      = Ideal.logistic (k0_pay3 (F := Ideal) v3 v4 v12 v14 v16 v28 v30 v31 (ix2 p (band 60 j)))
        * Ideal.tanh (k0_pay4 (F := Ideal) v3 v4 v5 v12 v14 v16 v28 v30 v31 (ix2 p j)) := by
  unfold k0_pay5
  show Ideal.logistic (extractStridedSlice S2048x20 ![0, 60] (k0_pay3 (F := Ideal) v3 v4 v12 v14 v16 v28 v30 v31) slices_S2048x80_o0_60_S2048x20 (ix2 p j))
      * Ideal.tanh (k0_pay4 (F := Ideal) v3 v4 v5 v12 v14 v16 v28 v30 v31 (ix2 p j)) = _
  rw [cut60]

/-- The head at (p, u). -/
theorem pay6_apply (u : Fin 1) :
    k0_pay6 (F := Ideal) v3 v4 v5 v12 v14 v16 v18 v20 v28 v30 v31 (ix2 p u)
      = ∑ k : Fin 20, k0_pay5 (F := Ideal) v3 v4 v5 v12 v14 v16 v28 v30 v31 (ix2 p k) * v18 (ix2 k u) + v20 (ix2 0 u) := by
  unfold k0_pay6
  show matmul dot_S2048x20_S20x1_S2048x1_1_0_0_1_n_n none (truncf .bf16 (k0_pay5 (F := Ideal) v3 v4 v5 v12 v14 v16 v28 v30 v31) bitsLt_bf16_f32) v18 (constant S2048x1 .f32 0x00000000#32) (ix2 p u)
      + broadcastTo S2048x1 v20 broadcasts_S1x1_S2048x1 (ix2 p u) = _
  rw [broadcastTo_1b_ab_apply, mm1]
  rfl

/-- The weights as the products take them are the loaded weights: narrowing is the identity, and so is a cast to the same shape. -/
theorem pay7_apply (i : S20x80.Idx) : k0_pay7 (F := Ideal) v11 i = v11 i := rfl
theorem pay8_apply (i : S20x80.Idx) : k0_pay8 (F := Ideal) v13 i = v13 i := rfl
theorem pay10_apply (i : S20x1.Idx) : k0_pay10 (F := Ideal) v17 i = v17 i := rfl
theorem pay9_eq : k0_pay9 (F := Ideal) v15 = v15 := by unfold k0_pay9; exact shapeCast_self _ _
theorem pay11_eq : k0_pay11 (F := Ideal) v19 = v19 := by unfold k0_pay11; exact shapeCast_self _ _

end Pay

/-! ## The stored values as the row functions

The operands of the body in the order of its windows: `x0` the scalar input column, `x1 x2` the first cell's hidden and
cell state, `x3 x4` the second cell's, `x5 x6 x7` the first cell's input weights, recurrent weights and bias, `x8 x9 x10`
the second cell's, `x11 x12` the head's weights and bias. -/

section Rows

variable (x0 : FVec Ideal S2048x1 .f32) (x1 x2 x3 x4 : FVec Ideal S2048x20 .f32) (x5 x7 x10 : FVec Ideal S1x80 .f32)
  (x6 x8 x9 : FVec Ideal S20x80 .f32) (x11 : FVec Ideal S20x1 .f32) (x12 : FVec Ideal S1x1 .f32) (p : Fin 2048)

theorem row_z0 (q : Fin 80) :
    k0_pay12 (F := Ideal) x0 x1 x5 x6 x7 (ix2 p q)
      = z0 (x0 (ix2 p 0)) (fun k => x1 (ix2 p k)) (fun q => x5 (ix2 0 q)) (fun k q => x6 (ix2 k q)) (fun q => x7 (ix2 0 q)) q :=
  pay12_apply (v0 := x0) (v2 := x1) (v6 := x5) (v7 := x6) (v9 := x7) (p := p) q

theorem row_c0n (j : Fin 20) :
    k0_pay1 (F := Ideal) x2 (k0_pay12 (F := Ideal) x0 x1 x5 x6 x7) (k0_pay13 (F := Ideal) x0 x1 x5 x6 x7) (k0_pay14 (F := Ideal) x0 x1 x5 x6 x7) (ix2 p j)
      = c0n (x0 (ix2 p 0)) (fun k => x1 (ix2 p k)) (fun k => x2 (ix2 p k)) (fun q => x5 (ix2 0 q)) (fun k q => x6 (ix2 k q)) (fun q => x7 (ix2 0 q)) j := by
  rw [pay1_apply, pay14_apply, pay13_apply, row_z0, row_z0, row_z0]
  rfl

theorem row_h0n (j : Fin 20) :
    k0_pay2 (F := Ideal) x2 (k0_pay12 (F := Ideal) x0 x1 x5 x6 x7) (k0_pay13 (F := Ideal) x0 x1 x5 x6 x7) (k0_pay14 (F := Ideal) x0 x1 x5 x6 x7) (ix2 p j)
      = h0n (x0 (ix2 p 0)) (fun k => x1 (ix2 p k)) (fun k => x2 (ix2 p k)) (fun q => x5 (ix2 0 q)) (fun k q => x6 (ix2 k q)) (fun q => x7 (ix2 0 q)) j := by
  rw [pay2_apply, row_c0n, row_z0]
  rfl

theorem row_z1 (q : Fin 80) :
    k0_pay3 (F := Ideal) x2 x3 (k0_pay7 (F := Ideal) x8) (k0_pay8 (F := Ideal) x9) (k0_pay9 (F := Ideal) x10)
        (k0_pay12 (F := Ideal) x0 x1 x5 x6 x7) (k0_pay13 (F := Ideal) x0 x1 x5 x6 x7) (k0_pay14 (F := Ideal) x0 x1 x5 x6 x7) (ix2 p q)
      = z1 (x0 (ix2 p 0)) (fun k => x1 (ix2 p k)) (fun k => x2 (ix2 p k)) (fun k => x3 (ix2 p k)) (fun q => x5 (ix2 0 q)) (fun k q => x6 (ix2 k q))
          (fun q => x7 (ix2 0 q)) (fun k q => x8 (ix2 k q)) (fun k q => x9 (ix2 k q)) (fun q => x10 (ix2 0 q)) q := by
  rw [pay3_apply, pay9_eq]
  simp only [row_h0n, pay7_apply, pay8_apply]
  rfl

theorem row_c1n (j : Fin 20) :
    k0_pay4 (F := Ideal) x2 x3 x4 (k0_pay7 (F := Ideal) x8) (k0_pay8 (F := Ideal) x9) (k0_pay9 (F := Ideal) x10)
        (k0_pay12 (F := Ideal) x0 x1 x5 x6 x7) (k0_pay13 (F := Ideal) x0 x1 x5 x6 x7) (k0_pay14 (F := Ideal) x0 x1 x5 x6 x7) (ix2 p j)
      = c1n (x0 (ix2 p 0)) (fun k => x1 (ix2 p k)) (fun k => x2 (ix2 p k)) (fun k => x3 (ix2 p k)) (fun k => x4 (ix2 p k)) (fun q => x5 (ix2 0 q))
          (fun k q => x6 (ix2 k q)) (fun q => x7 (ix2 0 q)) (fun k q => x8 (ix2 k q)) (fun k q => x9 (ix2 k q)) (fun q => x10 (ix2 0 q)) j := by
  rw [pay4_apply, row_z1, row_z1, row_z1]
  rfl

theorem row_h1n (j : Fin 20) :
    k0_pay5 (F := Ideal) x2 x3 x4 (k0_pay7 (F := Ideal) x8) (k0_pay8 (F := Ideal) x9) (k0_pay9 (F := Ideal) x10)
        (k0_pay12 (F := Ideal) x0 x1 x5 x6 x7) (k0_pay13 (F := Ideal) x0 x1 x5 x6 x7) (k0_pay14 (F := Ideal) x0 x1 x5 x6 x7) (ix2 p j)
      = h1n (x0 (ix2 p 0)) (fun k => x1 (ix2 p k)) (fun k => x2 (ix2 p k)) (fun k => x3 (ix2 p k)) (fun k => x4 (ix2 p k)) (fun q => x5 (ix2 0 q))
          (fun k q => x6 (ix2 k q)) (fun q => x7 (ix2 0 q)) (fun k q => x8 (ix2 k q)) (fun k q => x9 (ix2 k q)) (fun q => x10 (ix2 0 q)) j := by
  rw [pay5_apply, row_c1n, row_z1]
  rfl

theorem row_head (u : Fin 1) :
    k0_pay6 (F := Ideal) x2 x3 x4 (k0_pay7 (F := Ideal) x8) (k0_pay8 (F := Ideal) x9) (k0_pay9 (F := Ideal) x10) (k0_pay10 (F := Ideal) x11) (k0_pay11 (F := Ideal) x12)
        (k0_pay12 (F := Ideal) x0 x1 x5 x6 x7) (k0_pay13 (F := Ideal) x0 x1 x5 x6 x7) (k0_pay14 (F := Ideal) x0 x1 x5 x6 x7) (ix2 p u)
      = head (x0 (ix2 p 0)) (fun k => x1 (ix2 p k)) (fun k => x2 (ix2 p k)) (fun k => x3 (ix2 p k)) (fun k => x4 (ix2 p k)) (fun q => x5 (ix2 0 q))
          (fun k q => x6 (ix2 k q)) (fun q => x7 (ix2 0 q)) (fun k q => x8 (ix2 k q)) (fun k q => x9 (ix2 k q)) (fun q => x10 (ix2 0 q))
          (fun k => x11 (ix2 k u)) (x12 (ix2 0 u)) := by
  rw [pay6_apply, pay11_eq]
  simp only [row_h1n, pay10_apply]
  rfl

end Rows

end Cert.Lstm.KernelRow

end
-- ==== Proof.KernelArrays.lean ====
/-
  From the blocks the kernel writes back to the arrays it leaves.

  The grid has 1024 points. At point t the five tiled operands and the five results stage rows 2048·t … 2048·t + 2047 of
  their arrays, all columns; the eight weight operands stage their whole arrays at every point. Each result row depends
  only on the same row of the tiled operands, so what point t writes back is rows 2048·t … of ONE function of the
  argument arrays, and the 1024 blocks tile the 2097152 rows: the arrays end holding that function.
-/
import proofs.«160223_j81449759801976_1_alg».proof.Proof.Gen.KernelIdeal.Frame
import proofs.«160223_j81449759801976_1_alg».proof.Proof.KernelRow
import Idealize.ShloMosaic.Lib.Pipeline.Value
import Idealize.ShloMosaic.Lib.ValueLayout
import Idealize.ShloMosaic.Lib.Tactic

set_option maxRecDepth 16384

noncomputable section

namespace Cert.Lstm.KernelArrays

open Cert.KernelIdeal Cert.KernelIdeal.Gen Idealize.ShloMosaic Idealize.ShloMosaic.TcCoe Idealize.SL.Sem
open Idealize.ShloMosaic.ValueIdx Cert.Lstm.KernelRow
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 1024 points -/

/-- A tiled window's block index at point t is (t, 0). -/
theorem idx_tiled : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0) :=
  (by decide +kernel : ∀ t : Fin grid0.N, _)

/-- A weight window's block index is (0, 0) at every point. -/
theorem idx_const : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- Row p of point t's block is row 2048·t + p of the array. -/
def rowAt (t : Fin cfg0.N) (p : Fin 2048) : Fin 2097152 :=
  ⟨t.val * 2048 + p.val, by have := t.isLt; have hN : cfg0.N = 1024 := N_0; have := p.isLt; omega⟩

/-! ## Each operand's block, read off its array -/

theorem blk0 (c : Dev nD) (t : Fin cfg0.N) (x : S2048x1.Idx) (k : S2097152x1.Idx)
    (hk0 : (k 0).val = t.val * 2048 + (x 0).val) (hk1 : (k 1).val = (x 1).val) :
    (iblk m c 0 t : Vec Ideal S2048x1 .f32) x = (V m c main_v0 : S2097152x1.Idx → Elt Ideal .f32) k := by
  unfold iblk
  rw [View.read_apply]
  show V m c main_v0 _ = V m c main_v0 _
  congr 1
  funext a
  apply Fin.ext
  match a with
  | ⟨0, _⟩ => show win0_0.index t (0 : Fin 2) * 2048 + 1 * (x 0).val = (k 0).val; rw [(idx_tiled t).1.1, hk0]; omega
  | ⟨1, _⟩ => show win0_0.index t (1 : Fin 2) * 1 + 1 * (x 1).val = (k 1).val; rw [(idx_tiled t).1.2, hk1]; omega

theorem blk1 (c : Dev nD) (t : Fin cfg0.N) (x : S2048x20.Idx) (k : S2097152x20.Idx)
    (hk0 : (k 0).val = t.val * 2048 + (x 0).val) (hk1 : (k 1).val = (x 1).val) :
    (iblk m c 1 t : Vec Ideal S2048x20 .f32) x = (V m c main_arg1 : S2097152x20.Idx → Elt Ideal .f32) k := by
  unfold iblk
  rw [View.read_apply]
  show V m c main_arg1 _ = V m c main_arg1 _
  congr 1
  funext a
  apply Fin.ext
  match a with
  | ⟨0, _⟩ => show win0_1.index t (0 : Fin 2) * 2048 + 1 * (x 0).val = (k 0).val; rw [(idx_tiled t).2.1.1, hk0]; omega
  | ⟨1, _⟩ => show win0_1.index t (1 : Fin 2) * 20 + 1 * (x 1).val = (k 1).val; rw [(idx_tiled t).2.1.2, hk1]; omega

theorem blk2 (c : Dev nD) (t : Fin cfg0.N) (x : S2048x20.Idx) (k : S2097152x20.Idx)
    (hk0 : (k 0).val = t.val * 2048 + (x 0).val) (hk1 : (k 1).val = (x 1).val) :
    (iblk m c 2 t : Vec Ideal S2048x20 .f32) x = (V m c main_arg2 : S2097152x20.Idx → Elt Ideal .f32) k := by
  unfold iblk
  rw [View.read_apply]
  show V m c main_arg2 _ = V m c main_arg2 _
  congr 1
  funext a
  apply Fin.ext
  match a with
  | ⟨0, _⟩ => show win0_2.index t (0 : Fin 2) * 2048 + 1 * (x 0).val = (k 0).val; rw [(idx_tiled t).2.2.1.1, hk0]; omega
  | ⟨1, _⟩ => show win0_2.index t (1 : Fin 2) * 20 + 1 * (x 1).val = (k 1).val; rw [(idx_tiled t).2.2.1.2, hk1]; omega

theorem blk3 (c : Dev nD) (t : Fin cfg0.N) (x : S2048x20.Idx) (k : S2097152x20.Idx)
    (hk0 : (k 0).val = t.val * 2048 + (x 0).val) (hk1 : (k 1).val = (x 1).val) :
    (iblk m c 3 t : Vec Ideal S2048x20 .f32) x = (V m c main_arg3 : S2097152x20.Idx → Elt Ideal .f32) k := by
  unfold iblk
  rw [View.read_apply]
  show V m c main_arg3 _ = V m c main_arg3 _
  congr 1
  funext a
  apply Fin.ext
  match a with
  | ⟨0, _⟩ => show win0_3.index t (0 : Fin 2) * 2048 + 1 * (x 0).val = (k 0).val; rw [(idx_tiled t).2.2.2.1.1, hk0]; omega
  | ⟨1, _⟩ => show win0_3.index t (1 : Fin 2) * 20 + 1 * (x 1).val = (k 1).val; rw [(idx_tiled t).2.2.2.1.2, hk1]; omega

theorem blk4 (c : Dev nD) (t : Fin cfg0.N) (x : S2048x20.Idx) (k : S2097152x20.Idx)
    (hk0 : (k 0).val = t.val * 2048 + (x 0).val) (hk1 : (k 1).val = (x 1).val) :
    (iblk m c 4 t : Vec Ideal S2048x20 .f32) x = (V m c main_arg4 : S2097152x20.Idx → Elt Ideal .f32) k := by
  unfold iblk
  rw [View.read_apply]
  show V m c main_arg4 _ = V m c main_arg4 _
  congr 1
  funext a
  apply Fin.ext
  match a with
  | ⟨0, _⟩ => show win0_4.index t (0 : Fin 2) * 2048 + 1 * (x 0).val = (k 0).val; rw [(idx_tiled t).2.2.2.2.1.1, hk0]; omega
  | ⟨1, _⟩ => show win0_4.index t (1 : Fin 2) * 20 + 1 * (x 1).val = (k 1).val; rw [(idx_tiled t).2.2.2.2.1.2, hk1]; omega

theorem blk5 (c : Dev nD) (t : Fin cfg0.N) (x : S1x80.Idx) :
    (iblk m c 5 t : Vec Ideal S1x80 .f32) x = (V m c main_arg5 : S1x80.Idx → Elt Ideal .f32) x := by
  unfold iblk
  rw [View.read_apply]
  show V m c main_arg5 _ = V m c main_arg5 _
  congr 1
  funext a
  apply Fin.ext
  match a with
  | ⟨0, _⟩ => show win0_5.index t (0 : Fin 2) * 1 + 1 * (x 0).val = (x 0).val; rw [(idx_const t).1.1]; omega
  | ⟨1, _⟩ => show win0_5.index t (1 : Fin 2) * 80 + 1 * (x 1).val = (x 1).val; rw [(idx_const t).1.2]; omega

theorem blk6 (c : Dev nD) (t : Fin cfg0.N) (x : S20x80.Idx) :
    (iblk m c 6 t : Vec Ideal S20x80 .f32) x = (V m c main_arg6 : S20x80.Idx → Elt Ideal .f32) x := by
  unfold iblk
  rw [View.read_apply]
  show V m c main_arg6 _ = V m c main_arg6 _
  congr 1
  funext a
  apply Fin.ext
  match a with
  | ⟨0, _⟩ => show win0_6.index t (0 : Fin 2) * 20 + 1 * (x 0).val = (x 0).val; rw [(idx_const t).2.1.1]; omega
  | ⟨1, _⟩ => show win0_6.index t (1 : Fin 2) * 80 + 1 * (x 1).val = (x 1).val; rw [(idx_const t).2.1.2]; omega

theorem blk7 (c : Dev nD) (t : Fin cfg0.N) (x : S1x80.Idx) :
    (iblk m c 7 t : Vec Ideal S1x80 .f32) x = (V m c main_v1 : S1x80.Idx → Elt Ideal .f32) x := by
  unfold iblk
  rw [View.read_apply]
  show V m c main_v1 _ = V m c main_v1 _
  congr 1
  funext a
  apply Fin.ext
  match a with
  | ⟨0, _⟩ => show win0_7.index t (0 : Fin 2) * 1 + 1 * (x 0).val = (x 0).val; rw [(idx_const t).2.2.1.1]; omega
  | ⟨1, _⟩ => show win0_7.index t (1 : Fin 2) * 80 + 1 * (x 1).val = (x 1).val; rw [(idx_const t).2.2.1.2]; omega

theorem blk8 (c : Dev nD) (t : Fin cfg0.N) (x : S20x80.Idx) :
    (iblk m c 8 t : Vec Ideal S20x80 .f32) x = (V m c main_arg8 : S20x80.Idx → Elt Ideal .f32) x := by
  unfold iblk
  rw [View.read_apply]
  show V m c main_arg8 _ = V m c main_arg8 _
  congr 1
  funext a
  apply Fin.ext
  match a with
  | ⟨0, _⟩ => show win0_8.index t (0 : Fin 2) * 20 + 1 * (x 0).val = (x 0).val; rw [(idx_const t).2.2.2.1.1]; omega
  | ⟨1, _⟩ => show win0_8.index t (1 : Fin 2) * 80 + 1 * (x 1).val = (x 1).val; rw [(idx_const t).2.2.2.1.2]; omega

theorem blk9 (c : Dev nD) (t : Fin cfg0.N) (x : S20x80.Idx) :
    (iblk m c 9 t : Vec Ideal S20x80 .f32) x = (V m c main_arg9 : S20x80.Idx → Elt Ideal .f32) x := by
  unfold iblk
  rw [View.read_apply]
  show V m c main_arg9 _ = V m c main_arg9 _
  congr 1
  funext a
  apply Fin.ext
  match a with
  | ⟨0, _⟩ => show win0_9.index t (0 : Fin 2) * 20 + 1 * (x 0).val = (x 0).val; rw [(idx_const t).2.2.2.2.1.1]; omega
  | ⟨1, _⟩ => show win0_9.index t (1 : Fin 2) * 80 + 1 * (x 1).val = (x 1).val; rw [(idx_const t).2.2.2.2.1.2]; omega

theorem blk10 (c : Dev nD) (t : Fin cfg0.N) (x : S1x80.Idx) :
    (iblk m c 10 t : Vec Ideal S1x80 .f32) x = (V m c main_v2 : S1x80.Idx → Elt Ideal .f32) x := by
  unfold iblk
  rw [View.read_apply]
  show V m c main_v2 _ = V m c main_v2 _
  congr 1
  funext a
  apply Fin.ext
  match a with
  | ⟨0, _⟩ => show win0_10.index t (0 : Fin 2) * 1 + 1 * (x 0).val = (x 0).val; rw [(idx_const t).2.2.2.2.2.1.1]; omega
  | ⟨1, _⟩ => show win0_10.index t (1 : Fin 2) * 80 + 1 * (x 1).val = (x 1).val; rw [(idx_const t).2.2.2.2.2.1.2]; omega

theorem blk11 (c : Dev nD) (t : Fin cfg0.N) (x : S20x1.Idx) :
    (iblk m c 11 t : Vec Ideal S20x1 .f32) x = (V m c main_arg11 : S20x1.Idx → Elt Ideal .f32) x := by
  unfold iblk
  rw [View.read_apply]
  show V m c main_arg11 _ = V m c main_arg11 _
  congr 1
  funext a
  apply Fin.ext
  match a with
  | ⟨0, _⟩ => show win0_11.index t (0 : Fin 2) * 20 + 1 * (x 0).val = (x 0).val; rw [(idx_const t).2.2.2.2.2.2.1.1]; omega
  | ⟨1, _⟩ => show win0_11.index t (1 : Fin 2) * 1 + 1 * (x 1).val = (x 1).val; rw [(idx_const t).2.2.2.2.2.2.1.2]; omega

theorem blk12 (c : Dev nD) (t : Fin cfg0.N) (x : S1x1.Idx) :
    (iblk m c 12 t : Vec Ideal S1x1 .f32) x = (V m c main_v3 : S1x1.Idx → Elt Ideal .f32) x := by
  unfold iblk
  rw [View.read_apply]
  show V m c main_v3 _ = V m c main_v3 _
  congr 1
  funext a
  apply Fin.ext
  match a with
  | ⟨0, _⟩ => show win0_12.index t (0 : Fin 2) * 1 + 1 * (x 0).val = (x 0).val; rw [(idx_const t).2.2.2.2.2.2.2.1]; omega
  | ⟨1, _⟩ => show win0_12.index t (1 : Fin 2) * 1 + 1 * (x 1).val = (x 1).val; rw [(idx_const t).2.2.2.2.2.2.2.2]; omega

/-! ## The arrays the host operations before the call lay out -/

/-- The input matrix as one column of 2097152 rows. -/
abbrev xcol (c : Dev nD) : S2097152x1.Idx → Elt Ideal .f32 :=
  shapeCast S2097152x1 (m ((c : Thread nD τ).loc main_arg0)) shapeCasts_S2048x1024_S2097152x1

theorem V_main_v0 (c : Dev nD) : (V m c main_v0 : S2097152x1.Idx → Elt Ideal .f32) = xcol m c := by
  show StableHlo.after hostOps0 (fun b => m (c, b)) (Proc.devRef .tc main_v0) = _
  after_results
  rfl

/-- A bias vector laid out as one row reads, at column q, the vector's entry q. -/
theorem V_main_v1_apply (c : Dev nD) (q : Fin 80) :
    (V m c main_v1 : S1x80.Idx → Elt Ideal .f32) (ix2 0 q) = (m ((c : Thread nD τ).loc main_arg7) : S80.Idx → Elt Ideal .f32) (ix1 q) := by
  have e : (V m c main_v1 : S1x80.Idx → Elt Ideal .f32) = shapeCast S1x80 (m ((c : Thread nD τ).loc main_arg7) : S80.Idx → Elt Ideal .f32) shapeCasts_S80_S1x80 := by
    show StableHlo.after hostOps0 (fun b => m (c, b)) (Proc.devRef .tc main_v1) = _
    after_results
    rfl
  rw [e]
  exact shapeCast_a_1a_apply _ _ 0 q

theorem V_main_v2_apply (c : Dev nD) (q : Fin 80) :
    (V m c main_v2 : S1x80.Idx → Elt Ideal .f32) (ix2 0 q) = (m ((c : Thread nD τ).loc main_arg10) : S80.Idx → Elt Ideal .f32) (ix1 q) := by
  have e : (V m c main_v2 : S1x80.Idx → Elt Ideal .f32) = shapeCast S1x80 (m ((c : Thread nD τ).loc main_arg10) : S80.Idx → Elt Ideal .f32) shapeCasts_S80_S1x80 := by
    show StableHlo.after hostOps0 (fun b => m (c, b)) (Proc.devRef .tc main_v2) = _
    after_results
    rfl
  rw [e]
  exact shapeCast_a_1a_apply _ _ 0 q

theorem V_main_v3_apply (c : Dev nD) (u : Fin 1) :
    (V m c main_v3 : S1x1.Idx → Elt Ideal .f32) (ix2 0 u) = (m ((c : Thread nD τ).loc main_arg12) : S1.Idx → Elt Ideal .f32) (ix1 (0 : Fin 1)) := by
  have e : (V m c main_v3 : S1x1.Idx → Elt Ideal .f32) = shapeCast S1x1 (m ((c : Thread nD τ).loc main_arg12) : S1.Idx → Elt Ideal .f32) shapeCasts_S1_S1x1 := by
    show StableHlo.after hostOps0 (fun b => m (c, b)) (Proc.devRef .tc main_v3) = _
    after_results
    rfl
  rw [e]
  obtain rfl : u = 0 := Subsingleton.elim _ _
  exact shapeCast_a_1a_apply _ _ 0 0

/-! ## The five arrays the call leaves, as functions of the arguments -/

/-- What `main_v4_1` ends holding. -/
def GH0 (c : Dev nD) : S2097152x20.Idx → Elt Ideal .f32 :=
  arrH0 (xcol m c) (m ((c : Thread nD τ).loc main_arg1) : S2097152x20.Idx → Elt Ideal .f32) (m ((c : Thread nD τ).loc main_arg2) : S2097152x20.Idx → Elt Ideal .f32) (m ((c : Thread nD τ).loc main_arg5) : S1x80.Idx → Elt Ideal .f32) (m ((c : Thread nD τ).loc main_arg6) : S20x80.Idx → Elt Ideal .f32) (m ((c : Thread nD τ).loc main_arg7) : S80.Idx → Elt Ideal .f32)

/-- What `main_v4_2` ends holding. -/
def GC0 (c : Dev nD) : S2097152x20.Idx → Elt Ideal .f32 :=
  arrC0 (xcol m c) (m ((c : Thread nD τ).loc main_arg1) : S2097152x20.Idx → Elt Ideal .f32) (m ((c : Thread nD τ).loc main_arg2) : S2097152x20.Idx → Elt Ideal .f32) (m ((c : Thread nD τ).loc main_arg5) : S1x80.Idx → Elt Ideal .f32) (m ((c : Thread nD τ).loc main_arg6) : S20x80.Idx → Elt Ideal .f32) (m ((c : Thread nD τ).loc main_arg7) : S80.Idx → Elt Ideal .f32)

/-- What `main_v4_3` ends holding. -/
def GH1 (c : Dev nD) : S2097152x20.Idx → Elt Ideal .f32 :=
  arrH1 (xcol m c) (m ((c : Thread nD τ).loc main_arg1) : S2097152x20.Idx → Elt Ideal .f32) (m ((c : Thread nD τ).loc main_arg2) : S2097152x20.Idx → Elt Ideal .f32) (m ((c : Thread nD τ).loc main_arg3) : S2097152x20.Idx → Elt Ideal .f32) (m ((c : Thread nD τ).loc main_arg4) : S2097152x20.Idx → Elt Ideal .f32) (m ((c : Thread nD τ).loc main_arg5) : S1x80.Idx → Elt Ideal .f32) (m ((c : Thread nD τ).loc main_arg6) : S20x80.Idx → Elt Ideal .f32) (m ((c : Thread nD τ).loc main_arg7) : S80.Idx → Elt Ideal .f32) (m ((c : Thread nD τ).loc main_arg8) : S20x80.Idx → Elt Ideal .f32) (m ((c : Thread nD τ).loc main_arg9) : S20x80.Idx → Elt Ideal .f32) (m ((c : Thread nD τ).loc main_arg10) : S80.Idx → Elt Ideal .f32)

/-- What `main_v4_4` ends holding. -/
def GC1 (c : Dev nD) : S2097152x20.Idx → Elt Ideal .f32 :=
  arrC1 (xcol m c) (m ((c : Thread nD τ).loc main_arg1) : S2097152x20.Idx → Elt Ideal .f32) (m ((c : Thread nD τ).loc main_arg2) : S2097152x20.Idx → Elt Ideal .f32) (m ((c : Thread nD τ).loc main_arg3) : S2097152x20.Idx → Elt Ideal .f32) (m ((c : Thread nD τ).loc main_arg4) : S2097152x20.Idx → Elt Ideal .f32) (m ((c : Thread nD τ).loc main_arg5) : S1x80.Idx → Elt Ideal .f32) (m ((c : Thread nD τ).loc main_arg6) : S20x80.Idx → Elt Ideal .f32) (m ((c : Thread nD τ).loc main_arg7) : S80.Idx → Elt Ideal .f32) (m ((c : Thread nD τ).loc main_arg8) : S20x80.Idx → Elt Ideal .f32) (m ((c : Thread nD τ).loc main_arg9) : S20x80.Idx → Elt Ideal .f32) (m ((c : Thread nD τ).loc main_arg10) : S80.Idx → Elt Ideal .f32)

/-- What `main_v4_0` ends holding. -/
def GOut (c : Dev nD) : S2097152x1.Idx → Elt Ideal .f32 :=
  arrOut (xcol m c) (m ((c : Thread nD τ).loc main_arg1) : S2097152x20.Idx → Elt Ideal .f32) (m ((c : Thread nD τ).loc main_arg2) : S2097152x20.Idx → Elt Ideal .f32) (m ((c : Thread nD τ).loc main_arg3) : S2097152x20.Idx → Elt Ideal .f32) (m ((c : Thread nD τ).loc main_arg4) : S2097152x20.Idx → Elt Ideal .f32) (m ((c : Thread nD τ).loc main_arg5) : S1x80.Idx → Elt Ideal .f32) (m ((c : Thread nD τ).loc main_arg6) : S20x80.Idx → Elt Ideal .f32) (m ((c : Thread nD τ).loc main_arg7) : S80.Idx → Elt Ideal .f32) (m ((c : Thread nD τ).loc main_arg8) : S20x80.Idx → Elt Ideal .f32) (m ((c : Thread nD τ).loc main_arg9) : S20x80.Idx → Elt Ideal .f32) (m ((c : Thread nD τ).loc main_arg10) : S80.Idx → Elt Ideal .f32) (m ((c : Thread nD τ).loc main_arg11) : S20x1.Idx → Elt Ideal .f32) (m ((c : Thread nD τ).loc main_arg12) : S1.Idx → Elt Ideal .f32)

/-! ## What each point writes back -/

/-- What point t writes back to `main_v4_1` is rows 2048·t … of `GH0`. -/
theorem flushed14_eq (c : Dev nD) (t : Fin cfg0.N) :
    (dats m 0 c).flushed 14 t = ((cfg0.win 14).blk t).view.read (Elt Ideal) (GH0 m c) := by
  show (cfg0.win 14).cut (grid0.coords t) ((dats m 0 c).after 14 t) = _
  rw [after0_14]
  unfold out0_14
  rw [View.canon_unit_zero hz]
  simp only [View.ld_unit_zero (S := S2048x1) hz, View.ld_unit_zero (S := S2048x20) hz, View.ld_unit_zero (S := S1x80) hz,
    View.ld_unit_zero (S := S20x80) hz, View.ld_unit_zero (S := S20x1) hz, View.ld_unit_zero (S := S1x1) hz]
  refine funext fun (y : S2048x20.Idx) => ?_
  obtain ⟨p, j, rfl⟩ : ∃ (p : Fin 2048) (j : Fin 20), y = ix2 p j := ⟨y 0, y 1, eq_ix2 y⟩
  show k0_pay2 (F := Ideal) (iblk m c 2 t : Vec Ideal S2048x20 .f32) (k0_pay12 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (k0_pay13 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (k0_pay14 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (ix2 p j)
      = GH0 m c (((cfg0.win 14).blk t).view.emb (ix2 p j))
  have hemb : ((cfg0.win 14).blk t).view.emb (ix2 p j) = (ix2 (rowAt t p) j : S2097152x20.Idx) := by
    funext a
    apply Fin.ext
    match a with
    | ⟨0, _⟩ => show win0_14.index t (0 : Fin 2) * 2048 + 1 * p.val = t.val * 2048 + p.val; rw [(idx_tiled t).2.2.2.2.2.2.1.1]; omega
    | ⟨1, _⟩ => show win0_14.index t (1 : Fin 2) * 20 + 1 * j.val = j.val; rw [(idx_tiled t).2.2.2.2.2.2.1.2]; omega
  rw [hemb]
  refine (row_h0n (x0 := (iblk m c 0 t : Vec Ideal S2048x1 .f32)) (x1 := (iblk m c 1 t : Vec Ideal S2048x20 .f32)) (x2 := (iblk m c 2 t : Vec Ideal S2048x20 .f32)) (x5 := (iblk m c 5 t : Vec Ideal S1x80 .f32)) (x6 := (iblk m c 6 t : Vec Ideal S20x80 .f32)) (x7 := (iblk m c 7 t : Vec Ideal S1x80 .f32)) (p := p) j).trans ?_
  have e0 : (iblk m c 0 t : Vec Ideal S2048x1 .f32) (ix2 p 0) = xcol m c (ix2 (rowAt t p) 0) := (blk0 m c t (ix2 p 0) (ix2 (rowAt t p) 0) rfl rfl).trans (congrFun (V_main_v0 m c) _)
  have e1 : (fun k : Fin 20 => (iblk m c 1 t : Vec Ideal S2048x20 .f32) (ix2 p k)) = fun k => (m ((c : Thread nD τ).loc main_arg1) : S2097152x20.Idx → Elt Ideal .f32) (ix2 (rowAt t p) k) := funext fun k => (blk1 m c t (ix2 p k) (ix2 (rowAt t p) k) rfl rfl).trans (congrFun (V_main_arg1 m c) _)
  have e2 : (fun k : Fin 20 => (iblk m c 2 t : Vec Ideal S2048x20 .f32) (ix2 p k)) = fun k => (m ((c : Thread nD τ).loc main_arg2) : S2097152x20.Idx → Elt Ideal .f32) (ix2 (rowAt t p) k) := funext fun k => (blk2 m c t (ix2 p k) (ix2 (rowAt t p) k) rfl rfl).trans (congrFun (V_main_arg2 m c) _)
  have e5 : (fun q : Fin 80 => (iblk m c 5 t : Vec Ideal S1x80 .f32) (ix2 0 q)) = fun q => (m ((c : Thread nD τ).loc main_arg5) : S1x80.Idx → Elt Ideal .f32) (ix2 0 q) := funext fun q => (blk5 m c t (ix2 0 q)).trans (congrFun (V_main_arg5 m c) _)
  have e6 : (fun (k : Fin 20) (q : Fin 80) => (iblk m c 6 t : Vec Ideal S20x80 .f32) (ix2 k q)) = fun k q => (m ((c : Thread nD τ).loc main_arg6) : S20x80.Idx → Elt Ideal .f32) (ix2 k q) := funext fun k => funext fun q => (blk6 m c t (ix2 k q)).trans (congrFun (V_main_arg6 m c) _)
  have e7 : (fun q : Fin 80 => (iblk m c 7 t : Vec Ideal S1x80 .f32) (ix2 0 q)) = fun q => (m ((c : Thread nD τ).loc main_arg7) : S80.Idx → Elt Ideal .f32) (ix1 q) := funext fun q => (blk7 m c t (ix2 0 q)).trans (V_main_v1_apply m c q)
  rw [e0, e1, e2, e5, e6, e7]
  rfl

/-- What point t writes back to `main_v4_2` is rows 2048·t … of `GC0`. -/
theorem flushed15_eq (c : Dev nD) (t : Fin cfg0.N) :
    (dats m 0 c).flushed 15 t = ((cfg0.win 15).blk t).view.read (Elt Ideal) (GC0 m c) := by
  show (cfg0.win 15).cut (grid0.coords t) ((dats m 0 c).after 15 t) = _
  rw [after0_15]
  unfold out0_15
  rw [View.canon_unit_zero hz]
  simp only [View.ld_unit_zero (S := S2048x1) hz, View.ld_unit_zero (S := S2048x20) hz, View.ld_unit_zero (S := S1x80) hz,
    View.ld_unit_zero (S := S20x80) hz, View.ld_unit_zero (S := S20x1) hz, View.ld_unit_zero (S := S1x1) hz]
  refine funext fun (y : S2048x20.Idx) => ?_
  obtain ⟨p, j, rfl⟩ : ∃ (p : Fin 2048) (j : Fin 20), y = ix2 p j := ⟨y 0, y 1, eq_ix2 y⟩
  show k0_pay1 (F := Ideal) (iblk m c 2 t : Vec Ideal S2048x20 .f32) (k0_pay12 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (k0_pay13 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (k0_pay14 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (ix2 p j)
      = GC0 m c (((cfg0.win 15).blk t).view.emb (ix2 p j))
  have hemb : ((cfg0.win 15).blk t).view.emb (ix2 p j) = (ix2 (rowAt t p) j : S2097152x20.Idx) := by
    funext a
    apply Fin.ext
    match a with
    | ⟨0, _⟩ => show win0_15.index t (0 : Fin 2) * 2048 + 1 * p.val = t.val * 2048 + p.val; rw [(idx_tiled t).2.2.2.2.2.2.2.1.1]; omega
    | ⟨1, _⟩ => show win0_15.index t (1 : Fin 2) * 20 + 1 * j.val = j.val; rw [(idx_tiled t).2.2.2.2.2.2.2.1.2]; omega
  rw [hemb]
  refine (row_c0n (x0 := (iblk m c 0 t : Vec Ideal S2048x1 .f32)) (x1 := (iblk m c 1 t : Vec Ideal S2048x20 .f32)) (x2 := (iblk m c 2 t : Vec Ideal S2048x20 .f32)) (x5 := (iblk m c 5 t : Vec Ideal S1x80 .f32)) (x6 := (iblk m c 6 t : Vec Ideal S20x80 .f32)) (x7 := (iblk m c 7 t : Vec Ideal S1x80 .f32)) (p := p) j).trans ?_
  have e0 : (iblk m c 0 t : Vec Ideal S2048x1 .f32) (ix2 p 0) = xcol m c (ix2 (rowAt t p) 0) := (blk0 m c t (ix2 p 0) (ix2 (rowAt t p) 0) rfl rfl).trans (congrFun (V_main_v0 m c) _)
  have e1 : (fun k : Fin 20 => (iblk m c 1 t : Vec Ideal S2048x20 .f32) (ix2 p k)) = fun k => (m ((c : Thread nD τ).loc main_arg1) : S2097152x20.Idx → Elt Ideal .f32) (ix2 (rowAt t p) k) := funext fun k => (blk1 m c t (ix2 p k) (ix2 (rowAt t p) k) rfl rfl).trans (congrFun (V_main_arg1 m c) _)
  have e2 : (fun k : Fin 20 => (iblk m c 2 t : Vec Ideal S2048x20 .f32) (ix2 p k)) = fun k => (m ((c : Thread nD τ).loc main_arg2) : S2097152x20.Idx → Elt Ideal .f32) (ix2 (rowAt t p) k) := funext fun k => (blk2 m c t (ix2 p k) (ix2 (rowAt t p) k) rfl rfl).trans (congrFun (V_main_arg2 m c) _)
  have e5 : (fun q : Fin 80 => (iblk m c 5 t : Vec Ideal S1x80 .f32) (ix2 0 q)) = fun q => (m ((c : Thread nD τ).loc main_arg5) : S1x80.Idx → Elt Ideal .f32) (ix2 0 q) := funext fun q => (blk5 m c t (ix2 0 q)).trans (congrFun (V_main_arg5 m c) _)
  have e6 : (fun (k : Fin 20) (q : Fin 80) => (iblk m c 6 t : Vec Ideal S20x80 .f32) (ix2 k q)) = fun k q => (m ((c : Thread nD τ).loc main_arg6) : S20x80.Idx → Elt Ideal .f32) (ix2 k q) := funext fun k => funext fun q => (blk6 m c t (ix2 k q)).trans (congrFun (V_main_arg6 m c) _)
  have e7 : (fun q : Fin 80 => (iblk m c 7 t : Vec Ideal S1x80 .f32) (ix2 0 q)) = fun q => (m ((c : Thread nD τ).loc main_arg7) : S80.Idx → Elt Ideal .f32) (ix1 q) := funext fun q => (blk7 m c t (ix2 0 q)).trans (V_main_v1_apply m c q)
  rw [e0, e1, e2, e5, e6, e7]
  rfl

/-- What point t writes back to `main_v4_3` is rows 2048·t … of `GH1`. -/
theorem flushed16_eq (c : Dev nD) (t : Fin cfg0.N) :
    (dats m 0 c).flushed 16 t = ((cfg0.win 16).blk t).view.read (Elt Ideal) (GH1 m c) := by
  show (cfg0.win 16).cut (grid0.coords t) ((dats m 0 c).after 16 t) = _
  rw [after0_16]
  unfold out0_16
  rw [View.canon_unit_zero hz]
  simp only [View.ld_unit_zero (S := S2048x1) hz, View.ld_unit_zero (S := S2048x20) hz, View.ld_unit_zero (S := S1x80) hz,
    View.ld_unit_zero (S := S20x80) hz, View.ld_unit_zero (S := S20x1) hz, View.ld_unit_zero (S := S1x1) hz]
  refine funext fun (y : S2048x20.Idx) => ?_
  obtain ⟨p, j, rfl⟩ : ∃ (p : Fin 2048) (j : Fin 20), y = ix2 p j := ⟨y 0, y 1, eq_ix2 y⟩
  show k0_pay5 (F := Ideal) (iblk m c 2 t : Vec Ideal S2048x20 .f32) (iblk m c 3 t : Vec Ideal S2048x20 .f32) (iblk m c 4 t : Vec Ideal S2048x20 .f32) (k0_pay7 (F := Ideal) (iblk m c 8 t : Vec Ideal S20x80 .f32)) (k0_pay8 (F := Ideal) (iblk m c 9 t : Vec Ideal S20x80 .f32)) (k0_pay9 (F := Ideal) (iblk m c 10 t : Vec Ideal S1x80 .f32)) (k0_pay12 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (k0_pay13 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (k0_pay14 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (ix2 p j)
      = GH1 m c (((cfg0.win 16).blk t).view.emb (ix2 p j))
  have hemb : ((cfg0.win 16).blk t).view.emb (ix2 p j) = (ix2 (rowAt t p) j : S2097152x20.Idx) := by
    funext a
    apply Fin.ext
    match a with
    | ⟨0, _⟩ => show win0_16.index t (0 : Fin 2) * 2048 + 1 * p.val = t.val * 2048 + p.val; rw [(idx_tiled t).2.2.2.2.2.2.2.2.1.1]; omega
    | ⟨1, _⟩ => show win0_16.index t (1 : Fin 2) * 20 + 1 * j.val = j.val; rw [(idx_tiled t).2.2.2.2.2.2.2.2.1.2]; omega
  rw [hemb]
  refine (row_h1n (x0 := (iblk m c 0 t : Vec Ideal S2048x1 .f32)) (x1 := (iblk m c 1 t : Vec Ideal S2048x20 .f32)) (x2 := (iblk m c 2 t : Vec Ideal S2048x20 .f32)) (x5 := (iblk m c 5 t : Vec Ideal S1x80 .f32)) (x6 := (iblk m c 6 t : Vec Ideal S20x80 .f32)) (x7 := (iblk m c 7 t : Vec Ideal S1x80 .f32)) (x3 := (iblk m c 3 t : Vec Ideal S2048x20 .f32)) (x4 := (iblk m c 4 t : Vec Ideal S2048x20 .f32)) (x8 := (iblk m c 8 t : Vec Ideal S20x80 .f32)) (x9 := (iblk m c 9 t : Vec Ideal S20x80 .f32)) (x10 := (iblk m c 10 t : Vec Ideal S1x80 .f32)) (p := p) j).trans ?_
  have e0 : (iblk m c 0 t : Vec Ideal S2048x1 .f32) (ix2 p 0) = xcol m c (ix2 (rowAt t p) 0) := (blk0 m c t (ix2 p 0) (ix2 (rowAt t p) 0) rfl rfl).trans (congrFun (V_main_v0 m c) _)
  have e1 : (fun k : Fin 20 => (iblk m c 1 t : Vec Ideal S2048x20 .f32) (ix2 p k)) = fun k => (m ((c : Thread nD τ).loc main_arg1) : S2097152x20.Idx → Elt Ideal .f32) (ix2 (rowAt t p) k) := funext fun k => (blk1 m c t (ix2 p k) (ix2 (rowAt t p) k) rfl rfl).trans (congrFun (V_main_arg1 m c) _)
  have e2 : (fun k : Fin 20 => (iblk m c 2 t : Vec Ideal S2048x20 .f32) (ix2 p k)) = fun k => (m ((c : Thread nD τ).loc main_arg2) : S2097152x20.Idx → Elt Ideal .f32) (ix2 (rowAt t p) k) := funext fun k => (blk2 m c t (ix2 p k) (ix2 (rowAt t p) k) rfl rfl).trans (congrFun (V_main_arg2 m c) _)
  have e3 : (fun k : Fin 20 => (iblk m c 3 t : Vec Ideal S2048x20 .f32) (ix2 p k)) = fun k => (m ((c : Thread nD τ).loc main_arg3) : S2097152x20.Idx → Elt Ideal .f32) (ix2 (rowAt t p) k) := funext fun k => (blk3 m c t (ix2 p k) (ix2 (rowAt t p) k) rfl rfl).trans (congrFun (V_main_arg3 m c) _)
  have e4 : (fun k : Fin 20 => (iblk m c 4 t : Vec Ideal S2048x20 .f32) (ix2 p k)) = fun k => (m ((c : Thread nD τ).loc main_arg4) : S2097152x20.Idx → Elt Ideal .f32) (ix2 (rowAt t p) k) := funext fun k => (blk4 m c t (ix2 p k) (ix2 (rowAt t p) k) rfl rfl).trans (congrFun (V_main_arg4 m c) _)
  have e5 : (fun q : Fin 80 => (iblk m c 5 t : Vec Ideal S1x80 .f32) (ix2 0 q)) = fun q => (m ((c : Thread nD τ).loc main_arg5) : S1x80.Idx → Elt Ideal .f32) (ix2 0 q) := funext fun q => (blk5 m c t (ix2 0 q)).trans (congrFun (V_main_arg5 m c) _)
  have e6 : (fun (k : Fin 20) (q : Fin 80) => (iblk m c 6 t : Vec Ideal S20x80 .f32) (ix2 k q)) = fun k q => (m ((c : Thread nD τ).loc main_arg6) : S20x80.Idx → Elt Ideal .f32) (ix2 k q) := funext fun k => funext fun q => (blk6 m c t (ix2 k q)).trans (congrFun (V_main_arg6 m c) _)
  have e7 : (fun q : Fin 80 => (iblk m c 7 t : Vec Ideal S1x80 .f32) (ix2 0 q)) = fun q => (m ((c : Thread nD τ).loc main_arg7) : S80.Idx → Elt Ideal .f32) (ix1 q) := funext fun q => (blk7 m c t (ix2 0 q)).trans (V_main_v1_apply m c q)
  have e8 : (fun (k : Fin 20) (q : Fin 80) => (iblk m c 8 t : Vec Ideal S20x80 .f32) (ix2 k q)) = fun k q => (m ((c : Thread nD τ).loc main_arg8) : S20x80.Idx → Elt Ideal .f32) (ix2 k q) := funext fun k => funext fun q => (blk8 m c t (ix2 k q)).trans (congrFun (V_main_arg8 m c) _)
  have e9 : (fun (k : Fin 20) (q : Fin 80) => (iblk m c 9 t : Vec Ideal S20x80 .f32) (ix2 k q)) = fun k q => (m ((c : Thread nD τ).loc main_arg9) : S20x80.Idx → Elt Ideal .f32) (ix2 k q) := funext fun k => funext fun q => (blk9 m c t (ix2 k q)).trans (congrFun (V_main_arg9 m c) _)
  have e10 : (fun q : Fin 80 => (iblk m c 10 t : Vec Ideal S1x80 .f32) (ix2 0 q)) = fun q => (m ((c : Thread nD τ).loc main_arg10) : S80.Idx → Elt Ideal .f32) (ix1 q) := funext fun q => (blk10 m c t (ix2 0 q)).trans (V_main_v2_apply m c q)
  rw [e0, e1, e2, e3, e4, e5, e6, e7, e8, e9, e10]
  rfl

/-- What point t writes back to `main_v4_4` is rows 2048·t … of `GC1`. -/
theorem flushed17_eq (c : Dev nD) (t : Fin cfg0.N) :
    (dats m 0 c).flushed 17 t = ((cfg0.win 17).blk t).view.read (Elt Ideal) (GC1 m c) := by
  show (cfg0.win 17).cut (grid0.coords t) ((dats m 0 c).after 17 t) = _
  rw [after0_17]
  unfold out0_17
  rw [View.canon_unit_zero hz]
  simp only [View.ld_unit_zero (S := S2048x1) hz, View.ld_unit_zero (S := S2048x20) hz, View.ld_unit_zero (S := S1x80) hz,
    View.ld_unit_zero (S := S20x80) hz, View.ld_unit_zero (S := S20x1) hz, View.ld_unit_zero (S := S1x1) hz]
  refine funext fun (y : S2048x20.Idx) => ?_
  obtain ⟨p, j, rfl⟩ : ∃ (p : Fin 2048) (j : Fin 20), y = ix2 p j := ⟨y 0, y 1, eq_ix2 y⟩
  show k0_pay4 (F := Ideal) (iblk m c 2 t : Vec Ideal S2048x20 .f32) (iblk m c 3 t : Vec Ideal S2048x20 .f32) (iblk m c 4 t : Vec Ideal S2048x20 .f32) (k0_pay7 (F := Ideal) (iblk m c 8 t : Vec Ideal S20x80 .f32)) (k0_pay8 (F := Ideal) (iblk m c 9 t : Vec Ideal S20x80 .f32)) (k0_pay9 (F := Ideal) (iblk m c 10 t : Vec Ideal S1x80 .f32)) (k0_pay12 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (k0_pay13 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (k0_pay14 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (ix2 p j)
      = GC1 m c (((cfg0.win 17).blk t).view.emb (ix2 p j))
  have hemb : ((cfg0.win 17).blk t).view.emb (ix2 p j) = (ix2 (rowAt t p) j : S2097152x20.Idx) := by
    funext a
    apply Fin.ext
    match a with
    | ⟨0, _⟩ => show win0_17.index t (0 : Fin 2) * 2048 + 1 * p.val = t.val * 2048 + p.val; rw [(idx_tiled t).2.2.2.2.2.2.2.2.2.1]; omega
    | ⟨1, _⟩ => show win0_17.index t (1 : Fin 2) * 20 + 1 * j.val = j.val; rw [(idx_tiled t).2.2.2.2.2.2.2.2.2.2]; omega
  rw [hemb]
  refine (row_c1n (x0 := (iblk m c 0 t : Vec Ideal S2048x1 .f32)) (x1 := (iblk m c 1 t : Vec Ideal S2048x20 .f32)) (x2 := (iblk m c 2 t : Vec Ideal S2048x20 .f32)) (x5 := (iblk m c 5 t : Vec Ideal S1x80 .f32)) (x6 := (iblk m c 6 t : Vec Ideal S20x80 .f32)) (x7 := (iblk m c 7 t : Vec Ideal S1x80 .f32)) (x3 := (iblk m c 3 t : Vec Ideal S2048x20 .f32)) (x4 := (iblk m c 4 t : Vec Ideal S2048x20 .f32)) (x8 := (iblk m c 8 t : Vec Ideal S20x80 .f32)) (x9 := (iblk m c 9 t : Vec Ideal S20x80 .f32)) (x10 := (iblk m c 10 t : Vec Ideal S1x80 .f32)) (p := p) j).trans ?_
  have e0 : (iblk m c 0 t : Vec Ideal S2048x1 .f32) (ix2 p 0) = xcol m c (ix2 (rowAt t p) 0) := (blk0 m c t (ix2 p 0) (ix2 (rowAt t p) 0) rfl rfl).trans (congrFun (V_main_v0 m c) _)
  have e1 : (fun k : Fin 20 => (iblk m c 1 t : Vec Ideal S2048x20 .f32) (ix2 p k)) = fun k => (m ((c : Thread nD τ).loc main_arg1) : S2097152x20.Idx → Elt Ideal .f32) (ix2 (rowAt t p) k) := funext fun k => (blk1 m c t (ix2 p k) (ix2 (rowAt t p) k) rfl rfl).trans (congrFun (V_main_arg1 m c) _)
  have e2 : (fun k : Fin 20 => (iblk m c 2 t : Vec Ideal S2048x20 .f32) (ix2 p k)) = fun k => (m ((c : Thread nD τ).loc main_arg2) : S2097152x20.Idx → Elt Ideal .f32) (ix2 (rowAt t p) k) := funext fun k => (blk2 m c t (ix2 p k) (ix2 (rowAt t p) k) rfl rfl).trans (congrFun (V_main_arg2 m c) _)
  have e3 : (fun k : Fin 20 => (iblk m c 3 t : Vec Ideal S2048x20 .f32) (ix2 p k)) = fun k => (m ((c : Thread nD τ).loc main_arg3) : S2097152x20.Idx → Elt Ideal .f32) (ix2 (rowAt t p) k) := funext fun k => (blk3 m c t (ix2 p k) (ix2 (rowAt t p) k) rfl rfl).trans (congrFun (V_main_arg3 m c) _)
  have e4 : (fun k : Fin 20 => (iblk m c 4 t : Vec Ideal S2048x20 .f32) (ix2 p k)) = fun k => (m ((c : Thread nD τ).loc main_arg4) : S2097152x20.Idx → Elt Ideal .f32) (ix2 (rowAt t p) k) := funext fun k => (blk4 m c t (ix2 p k) (ix2 (rowAt t p) k) rfl rfl).trans (congrFun (V_main_arg4 m c) _)
  have e5 : (fun q : Fin 80 => (iblk m c 5 t : Vec Ideal S1x80 .f32) (ix2 0 q)) = fun q => (m ((c : Thread nD τ).loc main_arg5) : S1x80.Idx → Elt Ideal .f32) (ix2 0 q) := funext fun q => (blk5 m c t (ix2 0 q)).trans (congrFun (V_main_arg5 m c) _)
  have e6 : (fun (k : Fin 20) (q : Fin 80) => (iblk m c 6 t : Vec Ideal S20x80 .f32) (ix2 k q)) = fun k q => (m ((c : Thread nD τ).loc main_arg6) : S20x80.Idx → Elt Ideal .f32) (ix2 k q) := funext fun k => funext fun q => (blk6 m c t (ix2 k q)).trans (congrFun (V_main_arg6 m c) _)
  have e7 : (fun q : Fin 80 => (iblk m c 7 t : Vec Ideal S1x80 .f32) (ix2 0 q)) = fun q => (m ((c : Thread nD τ).loc main_arg7) : S80.Idx → Elt Ideal .f32) (ix1 q) := funext fun q => (blk7 m c t (ix2 0 q)).trans (V_main_v1_apply m c q)
  have e8 : (fun (k : Fin 20) (q : Fin 80) => (iblk m c 8 t : Vec Ideal S20x80 .f32) (ix2 k q)) = fun k q => (m ((c : Thread nD τ).loc main_arg8) : S20x80.Idx → Elt Ideal .f32) (ix2 k q) := funext fun k => funext fun q => (blk8 m c t (ix2 k q)).trans (congrFun (V_main_arg8 m c) _)
  have e9 : (fun (k : Fin 20) (q : Fin 80) => (iblk m c 9 t : Vec Ideal S20x80 .f32) (ix2 k q)) = fun k q => (m ((c : Thread nD τ).loc main_arg9) : S20x80.Idx → Elt Ideal .f32) (ix2 k q) := funext fun k => funext fun q => (blk9 m c t (ix2 k q)).trans (congrFun (V_main_arg9 m c) _)
  have e10 : (fun q : Fin 80 => (iblk m c 10 t : Vec Ideal S1x80 .f32) (ix2 0 q)) = fun q => (m ((c : Thread nD τ).loc main_arg10) : S80.Idx → Elt Ideal .f32) (ix1 q) := funext fun q => (blk10 m c t (ix2 0 q)).trans (V_main_v2_apply m c q)
  rw [e0, e1, e2, e3, e4, e5, e6, e7, e8, e9, e10]
  rfl

/-- What point t writes back to `main_v4_0` is rows 2048·t … of `GOut`. -/
theorem flushed13_eq (c : Dev nD) (t : Fin cfg0.N) :
    (dats m 0 c).flushed 13 t = ((cfg0.win 13).blk t).view.read (Elt Ideal) (GOut m c) := by
  show (cfg0.win 13).cut (grid0.coords t) ((dats m 0 c).after 13 t) = _
  rw [after0_13]
  unfold out0_13
  rw [View.canon_unit_zero hz]
  simp only [View.ld_unit_zero (S := S2048x1) hz, View.ld_unit_zero (S := S2048x20) hz, View.ld_unit_zero (S := S1x80) hz,
    View.ld_unit_zero (S := S20x80) hz, View.ld_unit_zero (S := S20x1) hz, View.ld_unit_zero (S := S1x1) hz]
  refine funext fun (y : S2048x1.Idx) => ?_
  obtain ⟨p, u, rfl⟩ : ∃ (p : Fin 2048) (u : Fin 1), y = ix2 p u := ⟨y 0, y 1, eq_ix2 y⟩
  show k0_pay6 (F := Ideal) (iblk m c 2 t : Vec Ideal S2048x20 .f32) (iblk m c 3 t : Vec Ideal S2048x20 .f32) (iblk m c 4 t : Vec Ideal S2048x20 .f32) (k0_pay7 (F := Ideal) (iblk m c 8 t : Vec Ideal S20x80 .f32)) (k0_pay8 (F := Ideal) (iblk m c 9 t : Vec Ideal S20x80 .f32)) (k0_pay9 (F := Ideal) (iblk m c 10 t : Vec Ideal S1x80 .f32)) (k0_pay10 (F := Ideal) (iblk m c 11 t : Vec Ideal S20x1 .f32)) (k0_pay11 (F := Ideal) (iblk m c 12 t : Vec Ideal S1x1 .f32)) (k0_pay12 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (k0_pay13 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (k0_pay14 (F := Ideal) (iblk m c 0 t : Vec Ideal S2048x1 .f32) (iblk m c 1 t : Vec Ideal S2048x20 .f32) (iblk m c 5 t : Vec Ideal S1x80 .f32) (iblk m c 6 t : Vec Ideal S20x80 .f32) (iblk m c 7 t : Vec Ideal S1x80 .f32)) (ix2 p u)
      = GOut m c (((cfg0.win 13).blk t).view.emb (ix2 p u))
  have hemb : ((cfg0.win 13).blk t).view.emb (ix2 p u) = (ix2 (rowAt t p) u : S2097152x1.Idx) := by
    funext a
    apply Fin.ext
    match a with
    | ⟨0, _⟩ => show win0_13.index t (0 : Fin 2) * 2048 + 1 * p.val = t.val * 2048 + p.val; rw [(idx_tiled t).2.2.2.2.2.1.1]; omega
    | ⟨1, _⟩ => show win0_13.index t (1 : Fin 2) * 1 + 1 * u.val = u.val; rw [(idx_tiled t).2.2.2.2.2.1.2]; omega
  rw [hemb]
  refine (row_head (x0 := (iblk m c 0 t : Vec Ideal S2048x1 .f32)) (x1 := (iblk m c 1 t : Vec Ideal S2048x20 .f32)) (x2 := (iblk m c 2 t : Vec Ideal S2048x20 .f32)) (x5 := (iblk m c 5 t : Vec Ideal S1x80 .f32)) (x6 := (iblk m c 6 t : Vec Ideal S20x80 .f32)) (x7 := (iblk m c 7 t : Vec Ideal S1x80 .f32)) (x3 := (iblk m c 3 t : Vec Ideal S2048x20 .f32)) (x4 := (iblk m c 4 t : Vec Ideal S2048x20 .f32)) (x8 := (iblk m c 8 t : Vec Ideal S20x80 .f32)) (x9 := (iblk m c 9 t : Vec Ideal S20x80 .f32)) (x10 := (iblk m c 10 t : Vec Ideal S1x80 .f32)) (x11 := (iblk m c 11 t : Vec Ideal S20x1 .f32)) (x12 := (iblk m c 12 t : Vec Ideal S1x1 .f32)) (p := p) u).trans ?_
  have e0 : (iblk m c 0 t : Vec Ideal S2048x1 .f32) (ix2 p 0) = xcol m c (ix2 (rowAt t p) 0) := (blk0 m c t (ix2 p 0) (ix2 (rowAt t p) 0) rfl rfl).trans (congrFun (V_main_v0 m c) _)
  have e1 : (fun k : Fin 20 => (iblk m c 1 t : Vec Ideal S2048x20 .f32) (ix2 p k)) = fun k => (m ((c : Thread nD τ).loc main_arg1) : S2097152x20.Idx → Elt Ideal .f32) (ix2 (rowAt t p) k) := funext fun k => (blk1 m c t (ix2 p k) (ix2 (rowAt t p) k) rfl rfl).trans (congrFun (V_main_arg1 m c) _)
  have e2 : (fun k : Fin 20 => (iblk m c 2 t : Vec Ideal S2048x20 .f32) (ix2 p k)) = fun k => (m ((c : Thread nD τ).loc main_arg2) : S2097152x20.Idx → Elt Ideal .f32) (ix2 (rowAt t p) k) := funext fun k => (blk2 m c t (ix2 p k) (ix2 (rowAt t p) k) rfl rfl).trans (congrFun (V_main_arg2 m c) _)
  have e3 : (fun k : Fin 20 => (iblk m c 3 t : Vec Ideal S2048x20 .f32) (ix2 p k)) = fun k => (m ((c : Thread nD τ).loc main_arg3) : S2097152x20.Idx → Elt Ideal .f32) (ix2 (rowAt t p) k) := funext fun k => (blk3 m c t (ix2 p k) (ix2 (rowAt t p) k) rfl rfl).trans (congrFun (V_main_arg3 m c) _)
  have e4 : (fun k : Fin 20 => (iblk m c 4 t : Vec Ideal S2048x20 .f32) (ix2 p k)) = fun k => (m ((c : Thread nD τ).loc main_arg4) : S2097152x20.Idx → Elt Ideal .f32) (ix2 (rowAt t p) k) := funext fun k => (blk4 m c t (ix2 p k) (ix2 (rowAt t p) k) rfl rfl).trans (congrFun (V_main_arg4 m c) _)
  have e5 : (fun q : Fin 80 => (iblk m c 5 t : Vec Ideal S1x80 .f32) (ix2 0 q)) = fun q => (m ((c : Thread nD τ).loc main_arg5) : S1x80.Idx → Elt Ideal .f32) (ix2 0 q) := funext fun q => (blk5 m c t (ix2 0 q)).trans (congrFun (V_main_arg5 m c) _)
  have e6 : (fun (k : Fin 20) (q : Fin 80) => (iblk m c 6 t : Vec Ideal S20x80 .f32) (ix2 k q)) = fun k q => (m ((c : Thread nD τ).loc main_arg6) : S20x80.Idx → Elt Ideal .f32) (ix2 k q) := funext fun k => funext fun q => (blk6 m c t (ix2 k q)).trans (congrFun (V_main_arg6 m c) _)
  have e7 : (fun q : Fin 80 => (iblk m c 7 t : Vec Ideal S1x80 .f32) (ix2 0 q)) = fun q => (m ((c : Thread nD τ).loc main_arg7) : S80.Idx → Elt Ideal .f32) (ix1 q) := funext fun q => (blk7 m c t (ix2 0 q)).trans (V_main_v1_apply m c q)
  have e8 : (fun (k : Fin 20) (q : Fin 80) => (iblk m c 8 t : Vec Ideal S20x80 .f32) (ix2 k q)) = fun k q => (m ((c : Thread nD τ).loc main_arg8) : S20x80.Idx → Elt Ideal .f32) (ix2 k q) := funext fun k => funext fun q => (blk8 m c t (ix2 k q)).trans (congrFun (V_main_arg8 m c) _)
  have e9 : (fun (k : Fin 20) (q : Fin 80) => (iblk m c 9 t : Vec Ideal S20x80 .f32) (ix2 k q)) = fun k q => (m ((c : Thread nD τ).loc main_arg9) : S20x80.Idx → Elt Ideal .f32) (ix2 k q) := funext fun k => funext fun q => (blk9 m c t (ix2 k q)).trans (congrFun (V_main_arg9 m c) _)
  have e10 : (fun q : Fin 80 => (iblk m c 10 t : Vec Ideal S1x80 .f32) (ix2 0 q)) = fun q => (m ((c : Thread nD τ).loc main_arg10) : S80.Idx → Elt Ideal .f32) (ix1 q) := funext fun q => (blk10 m c t (ix2 0 q)).trans (V_main_v2_apply m c q)
  have e11 : (fun k : Fin 20 => (iblk m c 11 t : Vec Ideal S20x1 .f32) (ix2 k u)) = fun k => (m ((c : Thread nD τ).loc main_arg11) : S20x1.Idx → Elt Ideal .f32) (ix2 k u) := funext fun k => (blk11 m c t (ix2 k u)).trans (congrFun (V_main_arg11 m c) _)
  have e12 : (iblk m c 12 t : Vec Ideal S1x1 .f32) (ix2 0 u) = (m ((c : Thread nD τ).loc main_arg12) : S1.Idx → Elt Ideal .f32) (ix1 (0 : Fin 1)) := (blk12 m c t (ix2 0 u)).trans (V_main_v3_apply m c u)
  rw [e0, e1, e2, e3, e4, e5, e6, e7, e8, e9, e10, e11, e12]
  rfl

/-! ## The blocks tile the arrays -/

/-- An index of `main_v4_1` is in point t's block iff its row is among rows 2048·t … 2048·t + 2047. -/
theorem mem_blk14 (t : Fin cfg0.N) (i : S2097152x20.Idx) :
    i ∈ ((cfg0.win 14).blk t).view.set ↔ ∀ a : Fin 2, win0_14.index t a * S2048x20.size a ≤ (i a).val ∧ (i a).val < win0_14.index t a * S2048x20.size a + S2048x20.size a := by
  show i ∈ ((View.whole main_v4_1).slice (win0_14.rect t)).set ↔ _
  rw [View.set_slice_whole, Rect.mem_set_unit]
  exact Iff.rfl

/-- Row n lies in the block of point n / 2048: the blocks tile the array. -/
theorem cover14 (i : S2097152x20.Idx) :
    ∃ t : Fin cfg0.N, (cfg0.win 14).flush t = true ∧ i ∈ ((cfg0.win 14).blk t).view.set := by
  have hi0 : (i 0).val < 2097152 := (i 0).isLt
  have hi1 : (i 1).val < 20 := (i 1).isLt
  have hN : cfg0.N = 1024 := N_0
  have ht : (i 0).val / 2048 < cfg0.N := by omega
  obtain ⟨e0, e1⟩ := (idx_tiled ⟨(i 0).val / 2048, ht⟩).2.2.2.2.2.2.1
  refine ⟨⟨(i 0).val / 2048, ht⟩, flush0_14 _, ?_⟩
  rw [mem_blk14]
  intro a
  match a with
  | ⟨0, _⟩ =>
    show win0_14.index ⟨(i 0).val / 2048, ht⟩ (0 : Fin 2) * 2048 ≤ (i 0).val ∧ (i 0).val < win0_14.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_14.index ⟨(i 0).val / 2048, ht⟩ (1 : Fin 2) * 20 ≤ (i 1).val ∧ (i 1).val < win0_14.index ⟨(i 0).val / 2048, ht⟩ (1 : Fin 2) * 20 + 20
    rw [e1]
    omega

/-- `main_v4_1` after the call. -/
theorem final14 (c : Dev nD) : (dats m 0 c).arrAt 14 cfg0.N = GH0 m c :=
  (dats m 0 c).arrAt_eq_of_cover 14 (GH0 m c) (fun t _ => flushed14_eq m c t) cover14

/-- An index of `main_v4_2` is in point t's block iff its row is among rows 2048·t … 2048·t + 2047. -/
theorem mem_blk15 (t : Fin cfg0.N) (i : S2097152x20.Idx) :
    i ∈ ((cfg0.win 15).blk t).view.set ↔ ∀ a : Fin 2, win0_15.index t a * S2048x20.size a ≤ (i a).val ∧ (i a).val < win0_15.index t a * S2048x20.size a + S2048x20.size a := by
  show i ∈ ((View.whole main_v4_2).slice (win0_15.rect t)).set ↔ _
  rw [View.set_slice_whole, Rect.mem_set_unit]
  exact Iff.rfl

/-- Row n lies in the block of point n / 2048: the blocks tile the array. -/
theorem cover15 (i : S2097152x20.Idx) :
    ∃ t : Fin cfg0.N, (cfg0.win 15).flush t = true ∧ i ∈ ((cfg0.win 15).blk t).view.set := by
  have hi0 : (i 0).val < 2097152 := (i 0).isLt
  have hi1 : (i 1).val < 20 := (i 1).isLt
  have hN : cfg0.N = 1024 := N_0
  have ht : (i 0).val / 2048 < cfg0.N := by omega
  obtain ⟨e0, e1⟩ := (idx_tiled ⟨(i 0).val / 2048, ht⟩).2.2.2.2.2.2.2.1
  refine ⟨⟨(i 0).val / 2048, ht⟩, flush0_15 _, ?_⟩
  rw [mem_blk15]
  intro a
  match a with
  | ⟨0, _⟩ =>
    show win0_15.index ⟨(i 0).val / 2048, ht⟩ (0 : Fin 2) * 2048 ≤ (i 0).val ∧ (i 0).val < win0_15.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_15.index ⟨(i 0).val / 2048, ht⟩ (1 : Fin 2) * 20 ≤ (i 1).val ∧ (i 1).val < win0_15.index ⟨(i 0).val / 2048, ht⟩ (1 : Fin 2) * 20 + 20
    rw [e1]
    omega

/-- `main_v4_2` after the call. -/
theorem final15 (c : Dev nD) : (dats m 0 c).arrAt 15 cfg0.N = GC0 m c :=
  (dats m 0 c).arrAt_eq_of_cover 15 (GC0 m c) (fun t _ => flushed15_eq m c t) cover15

/-- An index of `main_v4_3` is in point t's block iff its row is among rows 2048·t … 2048·t + 2047. -/
theorem mem_blk16 (t : Fin cfg0.N) (i : S2097152x20.Idx) :
    i ∈ ((cfg0.win 16).blk t).view.set ↔ ∀ a : Fin 2, win0_16.index t a * S2048x20.size a ≤ (i a).val ∧ (i a).val < win0_16.index t a * S2048x20.size a + S2048x20.size a := by
  show i ∈ ((View.whole main_v4_3).slice (win0_16.rect t)).set ↔ _
  rw [View.set_slice_whole, Rect.mem_set_unit]
  exact Iff.rfl

/-- Row n lies in the block of point n / 2048: the blocks tile the array. -/
theorem cover16 (i : S2097152x20.Idx) :
    ∃ t : Fin cfg0.N, (cfg0.win 16).flush t = true ∧ i ∈ ((cfg0.win 16).blk t).view.set := by
  have hi0 : (i 0).val < 2097152 := (i 0).isLt
  have hi1 : (i 1).val < 20 := (i 1).isLt
  have hN : cfg0.N = 1024 := N_0
  have ht : (i 0).val / 2048 < cfg0.N := by omega
  obtain ⟨e0, e1⟩ := (idx_tiled ⟨(i 0).val / 2048, ht⟩).2.2.2.2.2.2.2.2.1
  refine ⟨⟨(i 0).val / 2048, ht⟩, flush0_16 _, ?_⟩
  rw [mem_blk16]
  intro a
  match a with
  | ⟨0, _⟩ =>
    show win0_16.index ⟨(i 0).val / 2048, ht⟩ (0 : Fin 2) * 2048 ≤ (i 0).val ∧ (i 0).val < win0_16.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_16.index ⟨(i 0).val / 2048, ht⟩ (1 : Fin 2) * 20 ≤ (i 1).val ∧ (i 1).val < win0_16.index ⟨(i 0).val / 2048, ht⟩ (1 : Fin 2) * 20 + 20
    rw [e1]
    omega

/-- `main_v4_3` after the call. -/
theorem final16 (c : Dev nD) : (dats m 0 c).arrAt 16 cfg0.N = GH1 m c :=
  (dats m 0 c).arrAt_eq_of_cover 16 (GH1 m c) (fun t _ => flushed16_eq m c t) cover16

/-- An index of `main_v4_4` is in point t's block iff its row is among rows 2048·t … 2048·t + 2047. -/
theorem mem_blk17 (t : Fin cfg0.N) (i : S2097152x20.Idx) :
    i ∈ ((cfg0.win 17).blk t).view.set ↔ ∀ a : Fin 2, win0_17.index t a * S2048x20.size a ≤ (i a).val ∧ (i a).val < win0_17.index t a * S2048x20.size a + S2048x20.size a := by
  show i ∈ ((View.whole main_v4_4).slice (win0_17.rect t)).set ↔ _
  rw [View.set_slice_whole, Rect.mem_set_unit]
  exact Iff.rfl

/-- Row n lies in the block of point n / 2048: the blocks tile the array. -/
theorem cover17 (i : S2097152x20.Idx) :
    ∃ t : Fin cfg0.N, (cfg0.win 17).flush t = true ∧ i ∈ ((cfg0.win 17).blk t).view.set := by
  have hi0 : (i 0).val < 2097152 := (i 0).isLt
  have hi1 : (i 1).val < 20 := (i 1).isLt
  have hN : cfg0.N = 1024 := N_0
  have ht : (i 0).val / 2048 < cfg0.N := by omega
  obtain ⟨e0, e1⟩ := (idx_tiled ⟨(i 0).val / 2048, ht⟩).2.2.2.2.2.2.2.2.2
  refine ⟨⟨(i 0).val / 2048, ht⟩, flush0_17 _, ?_⟩
  rw [mem_blk17]
  intro a
  match a with
  | ⟨0, _⟩ =>
    show win0_17.index ⟨(i 0).val / 2048, ht⟩ (0 : Fin 2) * 2048 ≤ (i 0).val ∧ (i 0).val < win0_17.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_17.index ⟨(i 0).val / 2048, ht⟩ (1 : Fin 2) * 20 ≤ (i 1).val ∧ (i 1).val < win0_17.index ⟨(i 0).val / 2048, ht⟩ (1 : Fin 2) * 20 + 20
    rw [e1]
    omega

/-- `main_v4_4` after the call. -/
theorem final17 (c : Dev nD) : (dats m 0 c).arrAt 17 cfg0.N = GC1 m c :=
  (dats m 0 c).arrAt_eq_of_cover 17 (GC1 m c) (fun t _ => flushed17_eq m c t) cover17

/-- An index of `main_v4_0` is in point t's block iff its row is among rows 2048·t … 2048·t + 2047. -/
theorem mem_blk13 (t : Fin cfg0.N) (i : S2097152x1.Idx) :
    i ∈ ((cfg0.win 13).blk t).view.set ↔ ∀ a : Fin 2, win0_13.index t a * S2048x1.size a ≤ (i a).val ∧ (i a).val < win0_13.index t a * S2048x1.size a + S2048x1.size a := by
  show i ∈ ((View.whole main_v4_0).slice (win0_13.rect t)).set ↔ _
  rw [View.set_slice_whole, Rect.mem_set_unit]
  exact Iff.rfl

/-- Row n lies in the block of point n / 2048: the blocks tile the array. -/
theorem cover13 (i : S2097152x1.Idx) :
    ∃ t : Fin cfg0.N, (cfg0.win 13).flush t = true ∧ i ∈ ((cfg0.win 13).blk t).view.set := by
  have hi0 : (i 0).val < 2097152 := (i 0).isLt
  have hi1 : (i 1).val < 1 := (i 1).isLt
  have hN : cfg0.N = 1024 := N_0
  have ht : (i 0).val / 2048 < cfg0.N := by omega
  obtain ⟨e0, e1⟩ := (idx_tiled ⟨(i 0).val / 2048, ht⟩).2.2.2.2.2.1
  refine ⟨⟨(i 0).val / 2048, ht⟩, flush0_13 _, ?_⟩
  rw [mem_blk13]
  intro a
  match a with
  | ⟨0, _⟩ =>
    show win0_13.index ⟨(i 0).val / 2048, ht⟩ (0 : Fin 2) * 2048 ≤ (i 0).val ∧ (i 0).val < win0_13.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_13.index ⟨(i 0).val / 2048, ht⟩ (1 : Fin 2) * 1 ≤ (i 1).val ∧ (i 1).val < win0_13.index ⟨(i 0).val / 2048, ht⟩ (1 : Fin 2) * 1 + 1
    rw [e1]
    omega

/-- `main_v4_0` after the call. -/
theorem final13 (c : Dev nD) : (dats m 0 c).arrAt 13 cfg0.N = GOut m c :=
  (dats m 0 c).arrAt_eq_of_cover 13 (GOut m c) (fun t _ => flushed13_eq m c t) cover13

/-! ## The host operation after the call, and the run -/

/-- The first result: the head's column laid out as the 2048 × 1024 input was. -/
theorem tail_out (c : Dev nD) :
    Pipeline.afterTail₀ cfgs (dats m) 0 (V0 m) [hostOps1] c main_v5
      = shapeCast S2048x1024 (GOut m c) shapeCasts_S2097152x1_S2048x1024 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4_0) = GOut m c :=
    (Pipeline.withArrays_arr spec0 launch0.win.arr_inj c _ _ 13).trans (final13 m c)
  rw [e]
  rfl

/-- Every weakly fair execution of the idealized kernel program terminates with the five results at these functions of the
    arguments and the arguments as launched. -/
theorem run : θ_run defs (onTc (τ := τ) (main (F := Ideal))) ⟨m, fun _ => 0, ρ⟩ fun r => ∀ c : Dev nD,
      r.2.mem ((c.tc : Thread nD τ).loc main_v5) = shapeCast S2048x1024 (GOut m c) shapeCasts_S2097152x1_S2048x1024
      ∧ r.2.mem ((c.tc : Thread nD τ).loc main_v4_1) = GH0 m c
      ∧ r.2.mem ((c.tc : Thread nD τ).loc main_v4_2) = GC0 m c
      ∧ r.2.mem ((c.tc : Thread nD τ).loc main_v4_3) = GH1 m c
      ∧ r.2.mem ((c.tc : Thread nD τ).loc main_v4_4) = GC1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).2 main_v5 (Pipeline.mem_restRefs_of main_v5 (by decide) (by decide))).trans (tail_out m c),
      ((h c).1 14).trans (final14 m c),
      ((h c).1 15).trans (final15 m c),
      ((h c).1 16).trans (final16 m c),
      ((h c).1 17).trans (final17 m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c))⟩)
    (run_main m ρ)

end Cert.Lstm.KernelArrays

end
-- ==== Proof.RefRow.lean ====
/-
  The reference's stages, row by row, at the ideal values.

  The reference works on the whole arrays of 2097152 rows. Its logistic function is spelt  1 / (1 + exp (−z))  with the
  constant one; on the extended reals that is σ. Its first product contracts the one column of the input with the one row
  of the input weights: a sum over a single index, the product itself. Read at (n, j), each result is the row function of
  `Cert.Lstm` applied to row n of the arguments.
-/
import proofs.«160223_j81449759801976_1_alg».proof.Proof.Gen.ReferenceIdeal.Read
import proofs.«160223_j81449759801976_1_alg».proof.Proof.Spec
import Idealize.ShloMosaic.Lib.ValueIdx
import Idealize.ShloMosaic.Lib.IdealHost
import Idealize.ShloMosaic.PureOps.Ideal.Laws

noncomputable section

namespace Cert.Lstm.RefRow

open Cert.ReferenceIdeal Cert.ReferenceIdeal.Gen Cert.ReferenceIdeal.Read Idealize.ShloMosaic Idealize.ShloMosaic.ValueIdx

/-- The reference's spelling of the logistic function is σ. -/
theorem sigma_eq (y : EReal) :
    Ideal.div (Ideal.ofBits .f32 0x3F800000#32) (Ideal.ofBits .f32 0x3F800000#32 + Ideal.exp (-y)) = Ideal.logistic y := by
  rw [Ideal.ofBits_one_f32]; rfl

/-! ## The composed index maps at an index given by coordinates -/

section Idx
variable (n : Fin 2097152)

theorem lidx1 (q : Fin 80) (k : Fin 1) : lidx_main_v1 (ix2 n q) k = ix2 n k :=
  funext fun a => by match a with | ⟨0, _⟩ => rfl | ⟨1, _⟩ => rfl
theorem ridx1 (q : Fin 80) (k : Fin 1) : ridx_main_v1 (ix2 n q) k = ix2 k q :=
  funext fun a => by match a with | ⟨0, _⟩ => rfl | ⟨1, _⟩ => rfl
theorem lidx2 (q : Fin 80) (k : Fin 20) : lidx_main_v2 (ix2 n q) k = ix2 n k :=
  funext fun a => by match a with | ⟨0, _⟩ => rfl | ⟨1, _⟩ => rfl
theorem ridx2 (q : Fin 80) (k : Fin 20) : ridx_main_v2 (ix2 n q) k = ix2 k q :=
  funext fun a => by match a with | ⟨0, _⟩ => rfl | ⟨1, _⟩ => rfl
theorem lidx35 (q : Fin 80) (k : Fin 20) : lidx_main_v35 (ix2 n q) k = ix2 n k :=
  funext fun a => by match a with | ⟨0, _⟩ => rfl | ⟨1, _⟩ => rfl
theorem ridx35 (q : Fin 80) (k : Fin 20) : ridx_main_v35 (ix2 n q) k = ix2 k q :=
  funext fun a => by match a with | ⟨0, _⟩ => rfl | ⟨1, _⟩ => rfl
theorem lidx36 (q : Fin 80) (k : Fin 20) : lidx_main_v36 (ix2 n q) k = ix2 n k :=
  funext fun a => by match a with | ⟨0, _⟩ => rfl | ⟨1, _⟩ => rfl
theorem ridx36 (q : Fin 80) (k : Fin 20) : ridx_main_v36 (ix2 n q) k = ix2 k q :=
  funext fun a => by match a with | ⟨0, _⟩ => rfl | ⟨1, _⟩ => rfl
theorem lidx69 (u : Fin 1) (k : Fin 20) : lidx_main_v69 (ix2 n u) k = ix2 n k :=
  funext fun a => by match a with | ⟨0, _⟩ => rfl | ⟨1, _⟩ => rfl
theorem ridx69 (u : Fin 1) (k : Fin 20) : ridx_main_v69 (ix2 n u) k = ix2 k u :=
  funext fun a => by match a with | ⟨0, _⟩ => rfl | ⟨1, _⟩ => rfl

theorem bias0 (q : Fin 80) : idx_main_v4 (idx_main_v5 (ix2 n q)) = ix1 q :=
  funext fun a => by match a with | ⟨0, _⟩ => rfl
theorem bias1 (q : Fin 80) : idx_main_v38 (idx_main_v39 (ix2 n q)) = ix1 q :=
  funext fun a => by match a with | ⟨0, _⟩ => rfl
theorem biasd (u : Fin 1) : idx_main_v70 (idx_main_v71 (ix2 n u)) = ix1 (0 : Fin 1) :=
  funext fun a => by match a with | ⟨0, _⟩ => rfl

theorem cut7 (j : Fin 20) : idx_main_v7 (ix2 n j) = ix2 n (band 0 j) :=
  funext fun a => Fin.ext (by match a with | ⟨0, _⟩ => rfl | ⟨1, _⟩ => exact (Nat.zero_add _).symm)
theorem cut14 (j : Fin 20) : idx_main_v14 (ix2 n j) = ix2 n (band 20 j) :=
  funext fun a => by match a with | ⟨0, _⟩ => rfl | ⟨1, _⟩ => rfl
theorem cut21 (j : Fin 20) : idx_main_v21 (ix2 n j) = ix2 n (band 40 j) :=
  funext fun a => by match a with | ⟨0, _⟩ => rfl | ⟨1, _⟩ => rfl
theorem cut23 (j : Fin 20) : idx_main_v23 (ix2 n j) = ix2 n (band 60 j) :=
  funext fun a => by match a with | ⟨0, _⟩ => rfl | ⟨1, _⟩ => rfl
theorem cut41 (j : Fin 20) : idx_main_v41 (ix2 n j) = ix2 n (band 0 j) :=
  funext fun a => Fin.ext (by match a with | ⟨0, _⟩ => rfl | ⟨1, _⟩ => exact (Nat.zero_add _).symm)
theorem cut48 (j : Fin 20) : idx_main_v48 (ix2 n j) = ix2 n (band 20 j) :=
  funext fun a => by match a with | ⟨0, _⟩ => rfl | ⟨1, _⟩ => rfl
theorem cut55 (j : Fin 20) : idx_main_v55 (ix2 n j) = ix2 n (band 40 j) :=
  funext fun a => by match a with | ⟨0, _⟩ => rfl | ⟨1, _⟩ => rfl
theorem cut57 (j : Fin 20) : idx_main_v57 (ix2 n j) = ix2 n (band 60 j) :=
  funext fun a => by match a with | ⟨0, _⟩ => rfl | ⟨1, _⟩ => rfl

end Idx

/-! ## The stages -/

section Stages

variable (x0 : (⟨S2048x1024, .f32⟩ : BufTy).Contents (Elt Ideal)) (x1 x2 x3 x4 : (⟨S2097152x20, .f32⟩ : BufTy).Contents (Elt Ideal)) (x5 : (⟨S1x80, .f32⟩ : BufTy).Contents (Elt Ideal)) (x6 x8 x9 : (⟨S20x80, .f32⟩ : BufTy).Contents (Elt Ideal))
  (x7 x10 : (⟨S80, .f32⟩ : BufTy).Contents (Elt Ideal)) (x11 : (⟨S20x1, .f32⟩ : BufTy).Contents (Elt Ideal)) (x12 : (⟨S1, .f32⟩ : BufTy).Contents (Elt Ideal)) (n : Fin 2097152)

/-- First cell's pre-activation at (n, q). -/
theorem ref_z0 (q : Fin 80) :
    val_main_v6 (F := Ideal) x0 x1 x5 x6 x7 (ix2 n q)
      = z0 (val_main_v0 (F := Ideal) x0 (ix2 n 0)) (fun k => x1 (ix2 n k)) (fun q => x5 (ix2 0 q)) (fun k q => x6 (ix2 k q)) (fun q => x7 (ix1 q)) q := by
  rw [val_main_v6_apply, val_main_v3_apply, val_main_v1_apply, val_main_v2_apply, val_main_v5_apply, val_main_v4_apply,
    Fin.sum_univ_one, lidx1, ridx1, bias0]
  simp only [lidx2, ridx2]
  rfl

/-- The reference's spelling of σ on one value, in the operations as a stage lemma leaves them. -/
theorem host_sigma (y : Ideal .f32) :
    FloatOps.hostDivf (F := Ideal) (φ := .f32) (FloatOps.ofBits .f32 0x3F800000#32)
        (FloatOps.addf (FloatOps.ofBits .f32 0x3F800000#32) (FloatOps.hostUnary .exp (FloatOps.hostNegf y)))
      = Ideal.logistic y :=
  sigma_eq y

/-- First cell's new cell state at (n, j). -/
theorem ref_c0n (j : Fin 20) :
    val_main_v32 (F := Ideal) x0 x1 x2 x5 x6 x7 (ix2 n j)
      = c0n (val_main_v0 (F := Ideal) x0 (ix2 n 0)) (fun k => x1 (ix2 n k)) (fun k => x2 (ix2 n k)) (fun q => x5 (ix2 0 q)) (fun k q => x6 (ix2 k q)) (fun q => x7 (ix1 q)) j := by
  rw [val_main_v32_apply, val_main_v30_apply, val_main_v31_apply,
    val_main_v20_apply, val_main_v19_apply, val_main_cst_2_apply, val_main_v18_apply, val_main_v17_apply, val_main_cst_1_apply,
    val_main_v16_apply, val_main_v15_apply, val_main_v14_apply, cut14,
    val_main_v13_apply, val_main_v12_apply, val_main_cst_0_apply, val_main_v11_apply, val_main_v10_apply, val_main_cst_apply,
    val_main_v9_apply, val_main_v8_apply, val_main_v7_apply, cut7,
    val_main_v22_apply, val_main_v21_apply, cut21, ref_z0, ref_z0, ref_z0, host_sigma, host_sigma]
  rfl

/-- First cell's new hidden state at (n, j). -/
theorem ref_h0n (j : Fin 20) :
    val_main_v34 (F := Ideal) x0 x1 x2 x5 x6 x7 (ix2 n j)
      = h0n (val_main_v0 (F := Ideal) x0 (ix2 n 0)) (fun k => x1 (ix2 n k)) (fun k => x2 (ix2 n k)) (fun q => x5 (ix2 0 q)) (fun k q => x6 (ix2 k q)) (fun q => x7 (ix1 q)) j := by
  rw [val_main_v34_apply, val_main_v33_apply, ref_c0n,
    val_main_v29_apply, val_main_v28_apply, val_main_cst_4_apply, val_main_v27_apply, val_main_v26_apply, val_main_cst_3_apply,
    val_main_v25_apply, val_main_v24_apply, val_main_v23_apply, cut23, ref_z0, host_sigma]
  rfl

/-- Second cell's pre-activation at (n, q). -/
theorem ref_z1 (q : Fin 80) :
    val_main_v40 (F := Ideal) x0 x1 x2 x3 x5 x6 x7 x8 x9 x10 (ix2 n q)
      = z1 (val_main_v0 (F := Ideal) x0 (ix2 n 0)) (fun k => x1 (ix2 n k)) (fun k => x2 (ix2 n k)) (fun k => x3 (ix2 n k)) (fun q => x5 (ix2 0 q)) (fun k q => x6 (ix2 k q)) (fun q => x7 (ix1 q)) (fun k q => x8 (ix2 k q)) (fun k q => x9 (ix2 k q)) (fun q => x10 (ix1 q)) q := by
  rw [val_main_v40_apply, val_main_v37_apply, val_main_v35_apply, val_main_v36_apply, val_main_v39_apply, val_main_v38_apply, bias1]
  simp only [lidx35, ridx35, lidx36, ridx36, ref_h0n]
  rfl

/-- Second cell's new cell state at (n, j). -/
theorem ref_c1n (j : Fin 20) :
    val_main_v66 (F := Ideal) x0 x1 x2 x3 x4 x5 x6 x7 x8 x9 x10 (ix2 n j)
      = c1n (val_main_v0 (F := Ideal) x0 (ix2 n 0)) (fun k => x1 (ix2 n k)) (fun k => x2 (ix2 n k)) (fun k => x3 (ix2 n k)) (fun k => x4 (ix2 n k)) (fun q => x5 (ix2 0 q)) (fun k q => x6 (ix2 k q)) (fun q => x7 (ix1 q)) (fun k q => x8 (ix2 k q)) (fun k q => x9 (ix2 k q)) (fun q => x10 (ix1 q)) j := by
  rw [val_main_v66_apply, val_main_v64_apply, val_main_v65_apply,
    val_main_v54_apply, val_main_v53_apply, val_main_cst_8_apply, val_main_v52_apply, val_main_v51_apply, val_main_cst_7_apply,
    val_main_v50_apply, val_main_v49_apply, val_main_v48_apply, cut48,
    val_main_v47_apply, val_main_v46_apply, val_main_cst_6_apply, val_main_v45_apply, val_main_v44_apply, val_main_cst_5_apply,
    val_main_v43_apply, val_main_v42_apply, val_main_v41_apply, cut41,
    val_main_v56_apply, val_main_v55_apply, cut55, ref_z1, ref_z1, ref_z1, host_sigma, host_sigma]
  rfl

/-- Second cell's new hidden state at (n, j). -/
theorem ref_h1n (j : Fin 20) :
    val_main_v68 (F := Ideal) x0 x1 x2 x3 x4 x5 x6 x7 x8 x9 x10 (ix2 n j)
      = h1n (val_main_v0 (F := Ideal) x0 (ix2 n 0)) (fun k => x1 (ix2 n k)) (fun k => x2 (ix2 n k)) (fun k => x3 (ix2 n k)) (fun k => x4 (ix2 n k)) (fun q => x5 (ix2 0 q)) (fun k q => x6 (ix2 k q)) (fun q => x7 (ix1 q)) (fun k q => x8 (ix2 k q)) (fun k q => x9 (ix2 k q)) (fun q => x10 (ix1 q)) j := by
  rw [val_main_v68_apply, val_main_v67_apply, ref_c1n,
    val_main_v63_apply, val_main_v62_apply, val_main_cst_10_apply, val_main_v61_apply, val_main_v60_apply, val_main_cst_9_apply,
    val_main_v59_apply, val_main_v58_apply, val_main_v57_apply, cut57, ref_z1, host_sigma]
  rfl

/-- The head at (n, u). -/
theorem ref_head (u : Fin 1) :
    val_main_v72 (F := Ideal) x0 x1 x2 x3 x4 x5 x6 x7 x8 x9 x10 x11 x12 (ix2 n u)
      = head (val_main_v0 (F := Ideal) x0 (ix2 n 0)) (fun k => x1 (ix2 n k)) (fun k => x2 (ix2 n k)) (fun k => x3 (ix2 n k)) (fun k => x4 (ix2 n k)) (fun q => x5 (ix2 0 q)) (fun k q => x6 (ix2 k q)) (fun q => x7 (ix1 q)) (fun k q => x8 (ix2 k q)) (fun k q => x9 (ix2 k q)) (fun q => x10 (ix1 q))
          (fun k => x11 (ix2 k u)) (x12 (ix1 (0 : Fin 1))) := by
  rw [val_main_v72_apply, val_main_v69_apply, val_main_v71_apply, val_main_v70_apply, biasd]
  simp only [lidx69, ridx69, ref_h1n]
  rfl

/-! ## The results as arrays -/

theorem ref_arrH0 :
    val_main_v34 (F := Ideal) x0 x1 x2 x5 x6 x7 = arrH0 (val_main_v0 (F := Ideal) x0) x1 x2 x5 x6 x7 := by
  funext i
  obtain ⟨n, j, rfl⟩ : ∃ (n : Fin 2097152) (j : Fin 20), i = ix2 n j := ⟨i 0, i 1, eq_ix2 i⟩
  rw [ref_h0n]
  rfl

theorem ref_arrC0 :
    val_main_v32 (F := Ideal) x0 x1 x2 x5 x6 x7 = arrC0 (val_main_v0 (F := Ideal) x0) x1 x2 x5 x6 x7 := by
  funext i
  obtain ⟨n, j, rfl⟩ : ∃ (n : Fin 2097152) (j : Fin 20), i = ix2 n j := ⟨i 0, i 1, eq_ix2 i⟩
  rw [ref_c0n]
  rfl

theorem ref_arrH1 :
    val_main_v68 (F := Ideal) x0 x1 x2 x3 x4 x5 x6 x7 x8 x9 x10
      = arrH1 (val_main_v0 (F := Ideal) x0) x1 x2 x3 x4 x5 x6 x7 x8 x9 x10 := by
  funext i
  obtain ⟨n, j, rfl⟩ : ∃ (n : Fin 2097152) (j : Fin 20), i = ix2 n j := ⟨i 0, i 1, eq_ix2 i⟩
  rw [ref_h1n]
  rfl

theorem ref_arrC1 :
    val_main_v66 (F := Ideal) x0 x1 x2 x3 x4 x5 x6 x7 x8 x9 x10
      = arrC1 (val_main_v0 (F := Ideal) x0) x1 x2 x3 x4 x5 x6 x7 x8 x9 x10 := by
  funext i
  obtain ⟨n, j, rfl⟩ : ∃ (n : Fin 2097152) (j : Fin 20), i = ix2 n j := ⟨i 0, i 1, eq_ix2 i⟩
  rw [ref_c1n]
  rfl

theorem ref_arrOut :
    val_main_v72 (F := Ideal) x0 x1 x2 x3 x4 x5 x6 x7 x8 x9 x10 x11 x12
      = arrOut (val_main_v0 (F := Ideal) x0) x1 x2 x3 x4 x5 x6 x7 x8 x9 x10 x11 x12 := by
  funext i
  obtain ⟨n, u, rfl⟩ : ∃ (n : Fin 2097152) (u : Fin 1), i = ix2 n u := ⟨i 0, i 1, eq_ix2 i⟩
  rw [ref_head]
  rfl

/-- The first result: the head's column laid out as the 2048 × 1024 input was. -/
theorem ref_result0 :
    val_main_v73 (F := Ideal) x0 x1 x2 x3 x4 x5 x6 x7 x8 x9 x10 x11 x12
      = shapeCast S2048x1024 (arrOut (val_main_v0 (F := Ideal) x0) x1 x2 x3 x4 x5 x6 x7 x8 x9 x10 x11 x12) shapeCasts_S2097152x1_S2048x1024 := by
  unfold val_main_v73
  rw [ref_arrOut]

end Stages

end Cert.Lstm.RefRow

end
-- ==== Proof.Claims.lean ====
/-
  The five claims.

  The three frames: the two kernel programs' are generated whole; the reference has no kernel, and its frame is its run with
  the results dropped. The idealization pass rewrote nothing, so `preserves` asks nothing. `algebraic`: the idealized
  kernel's run leaves, in each result array, the row function of `Cert.Lstm` of the argument arrays (the blocks the
  1024 grid points write back tile the 2097152 rows), and the reference's run leaves its stages, which read at an index
  are the same row functions; the first result is on both sides the head's column relaid as 2048 × 1024 by the same
  operation. No step uses that the inputs are finite.
-/
import proofs.«160223_j81449759801976_1_alg».proof.Defs
import proofs.«160223_j81449759801976_1_alg».proof.Proof.Gen.Kernel.Frame
import proofs.«160223_j81449759801976_1_alg».proof.Proof.Gen.KernelIdeal.Frame
import proofs.«160223_j81449759801976_1_alg».proof.Proof.Gen.ReferenceIdeal.Run
import proofs.«160223_j81449759801976_1_alg».proof.Proof.Gen.ReferenceIdeal.Read
import proofs.«160223_j81449759801976_1_alg».proof.Proof.Gen.Pre_finite_inputs
import proofs.«160223_j81449759801976_1_alg».proof.Proof.KernelArrays
import proofs.«160223_j81449759801976_1_alg».proof.Proof.RefRow

noncomputable section

namespace Cert.Proof.LstmClaims

open Idealize.ShloMosaic Idealize.ShloMosaic.TcCoe Idealize.SL.Sem
open Cert.Lstm Cert.Lstm.KernelArrays Cert.Lstm.RefRow

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2.2) (Cert.ReferenceIdeal.Value.run (F := Ideal) m ρ)

theorem preserves : Cert.preserves_Kernel_KernelIdeal := trivial

/-- Both idealized programs end with the same five arrays. -/
theorem algebraic : Cert.algebraic_KernelIdeal_ReferenceIdeal := by
  intro m ρ m' ρ' _ hagree
  refine ⟨fun c => shapeCast Cert.KernelIdeal.S2048x1024 (GOut m c) Cert.KernelIdeal.Gen.shapeCasts_S2097152x1_S2048x1024,
    fun c => GH0 m c, fun c => GC0 m c, fun c => GH1 m c, fun c => GC1 m c, Cert.Lstm.KernelArrays.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨(h c).1.trans ?_, (h c).2.1.trans ?_, (h c).2.2.1.trans ?_, (h c).2.2.2.1.trans ?_, (h c).2.2.2.2.1.trans ?_, (h c).2.2.2.2.2⟩
  · rw [Cert.ReferenceIdeal.Read.val_main_v73_eq, a0, a1, a2, a3, a4, a5, a6, a7, a8, a9, a10, a11, a12, ref_result0]
    rfl
  · rw [a0, a1, a2, a5, a6, a7]
    exact (Cert.ReferenceIdeal.Read.val_main_v34_eq _ _ _ _ _ _).trans (ref_arrH0 _ _ _ _ _ _)
  · rw [a0, a1, a2, a5, a6, a7]
    exact (Cert.ReferenceIdeal.Read.val_main_v32_eq _ _ _ _ _ _).trans (ref_arrC0 _ _ _ _ _ _)
  · rw [Cert.ReferenceIdeal.Read.val_main_v68_eq, a0, a1, a2, a3, a4, a5, a6, a7, a8, a9, a10, ref_arrH1]
    rfl
  · rw [Cert.ReferenceIdeal.Read.val_main_v66_eq, a0, a1, a2, a3, a4, a5, a6, a7, a8, a9, a10, ref_arrC1]
    rfl

end Cert.Proof.LstmClaims

end
-- ==== Proof.lean ====
/- The proof of `Cert.Claim`: the frames of the three programs, the (empty) idealization ledger, and the equality of the
   idealized kernel's and the idealized reference's five results over the extended reals — two stacked LSTM cells and a
   dense head applied to 2097152 independent rows. The mathematics is in Proof/Spec.lean (the row functions), Proof/KernelRow.lean
   (the kernel body's stored values are those functions of a row of its blocks), Proof/KernelArrays.lean (the blocks tile
   the arrays), Proof/RefRow.lean (the reference's stages are the same functions) and Proof/Claims.lean (the claims). -/
import proofs.«160223_j81449759801976_1_alg».proof.Defs
import proofs.«160223_j81449759801976_1_alg».proof.Proof.Claims
import proofs.«160223_j81449759801976_1_alg».proof.Proof.Gen.Kernel
import proofs.«160223_j81449759801976_1_alg».proof.Proof.Gen.Kernel.Skeleton
import proofs.«160223_j81449759801976_1_alg».proof.Proof.Gen.Kernel.Launch
import proofs.«160223_j81449759801976_1_alg».proof.Proof.Gen.Kernel.Points
import proofs.«160223_j81449759801976_1_alg».proof.Proof.Gen.Kernel.Frame
import proofs.«160223_j81449759801976_1_alg».proof.Proof.Gen.KernelIdeal
import proofs.«160223_j81449759801976_1_alg».proof.Proof.Gen.KernelIdeal.Skeleton
import proofs.«160223_j81449759801976_1_alg».proof.Proof.Gen.KernelIdeal.Launch
import proofs.«160223_j81449759801976_1_alg».proof.Proof.Gen.KernelIdeal.Points
import proofs.«160223_j81449759801976_1_alg».proof.Proof.Gen.KernelIdeal.Frame
import proofs.«160223_j81449759801976_1_alg».proof.Proof.Gen.ReferenceIdeal
import proofs.«160223_j81449759801976_1_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  LstmClaims.frame_p, LstmClaims.frame_pi, LstmClaims.frame_ri, LstmClaims.preserves, LstmClaims.algebraic⟩

end Cert.Proof

end
